-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x128 : Shape := ⟨2, ![800000, 128]⟩
abbrev S1x64 : Shape := ⟨2, ![1, 64]⟩
abbrev S50000 : Shape := ⟨1, ![50000]⟩
abbrev S256x256 : Shape := ⟨2, ![256, 256]⟩
abbrev S256 : Shape := ⟨1, ![256]⟩
abbrev S384x256 : Shape := ⟨2, ![384, 256]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S1x64 : S_.BroadcastsInDim S1x64 (![] : Fin 0 → Fin S1x64.rank)
  reducesTo_S1x64_S_d0_1 : S1x64.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S384x256 : S_.BroadcastsInDim S384x256 (![] : Fin 0 → Fin S384x256.rank)
  reducesTo_S384x256_S_d0_1 : S384x256.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S2x800000 32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : IVec S1x800000 32 := (extractStridedSlice S1x800000 ![0, 0] · slices_S2x800000_S1x800000_0_0) main_arg1
  let main_v55 : IVec S800000 32 := shapeCast S800000 main_v54 shapeCasts_S1x800000_S800000
  let main_c_20 : IVec S_ 32 := constantI S_ 32 4294917296#32
  let main_v56 : IVec S800000 32 := broadcastInDim S800000 ![] bcast_S_S800000 main_c_20
  let main_v57 : IVec S800000 1 := cmpi .sge main_v55 main_v56
  let main_c_21 : IVec S_ 1 := constantI S_ 1 1#1
  let main_v58 : IVec S_ 1 := (fun x v => Host.reduce IntOp.andi x v reducesTo_S800000_S_d0 h_S_) main_v57 main_c_21
  let main_v59 : IVec S_ 1 := andi main_v53 main_v58
  let main_v60 : IVec S1x800000 32 := (extractStridedSlice S1x800000 ![0, 0] · slices_S2x800000_S1x800000_0_0) main_arg1
  let main_v61 : IVec S800000 32 := shapeCast S800000 main_v60 shapeCasts_S1x800000_S800000
  let main_c_22 : IVec S_ 32 := constantI S_ 32 50000#32
  let main_v62 : IVec S800000 32 := broadcastInDim S800000 ![] bcast_S_S800000 main_c_22
  let main_v63 : IVec S800000 1 := cmpi .slt main_v61 main_v62
  let main_c_23 : IVec S_ 1 := constantI S_ 1 1#1
  let main_v64 : IVec S_ 1 := (fun x v => Host.reduce IntOp.andi x v reducesTo_S800000_S_d0 h_S_) main_v63 main_c_23
  let main_v65 : IVec S_ 1 := andi main_v59 main_v64
  main_v65

def fn_part2 {F : FTy → Type} [FloatOps F] (main_arg1 : IVec S2x800000 32) (main_arg9 : FVec F S384x256 .f32) (main_arg10 : FVec F S256 .f32) (main_arg11 : FVec F S256x256 .f32) (main_arg12 : FVec F S256 .f32) (main_v33 : IVec S_ 1) : IVec S_ 1 :=
  let main_v34 : FVec F S384x256 .f32 := Host.absf main_arg9
  let main_cst_12 : FVec F S_ .f32 := constant S_ .f32 0x7F800000#32
  let main_v35 : FVec F S384x256 .f32 := broadcastInDim S384x256 ![] bcast_S_S384x256 main_cst_12
  let main_v36 : IVec S384x256 1 := cmpf .olt main_v34 main_v35
  let main_c_13 : IVec S_ 1 := constantI S_ 1 1#1
  let main_v37 : IVec S_ 1 := (fun x v => Host.reduce IntOp.andi x v reducesTo_S384x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg1 main_v48 main_v49 main_v50

def fn_part1 {F : FTy → Type} [FloatOps F] (main_arg1 : IVec S2x800000 32) (main_arg6 : FVec F S256 .f32) (main_arg7 : FVec F S256x256 .f32) (main_arg8 : FVec F S256 .f32) (main_arg9 : FVec F S384x256 .f32) (main_arg10 : FVec F S256 .f32) (main_arg11 : FVec F S256x256 .f32) (main_arg12 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg9 main_arg10 main_arg11 main_arg12 main_v33

def fn {F : FTy → Type} [FloatOps F] (main_arg0 : FVec F S50000x128 .f32) (main_arg1 : IVec S2x800000 32) (main_arg2 : FVec F S800000x128 .f32) (main_arg3 : FVec F S1x64 .f32) (main_arg4 : IVec S50000 32) (main_arg5 : FVec F S256x256 .f32) (main_arg6 : FVec F S256 .f32) (main_arg7 : FVec F S256x256 .f32) (main_arg8 : FVec F S256 .f32) (main_arg9 : FVec F S384x256 .f32) (main_arg10 : FVec F S256 .f32) (main_arg11 : FVec F S256x256 .f32) (main_arg12 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000x128 : Shape := ⟨2, ![800000, 128]⟩
abbrev S1x64 : Shape := ⟨2, ![1, 64]⟩
abbrev S50000 : Shape := ⟨1, ![50000]⟩
abbrev S256x256 : Shape := ⟨2, ![256, 256]⟩
abbrev S256 : Shape := ⟨1, ![256]⟩
abbrev S384x256 : Shape := ⟨2, ![384, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S128x256 : Shape := ⟨2, ![128, 256]⟩
abbrev S1x256 : Shape := ⟨2, ![1, 256]⟩
abbrev S800000x256 : Shape := ⟨2, ![800000, 256]⟩
abbrev S4000x128 : Shape := ⟨2, ![4000, 128]⟩
abbrev S4000x256 : Shape := ⟨2, ![4000, 256]⟩
abbrev S50000x256 : Shape := ⟨2, ![50000, 256]⟩
abbrev S50000x1 : Shape := ⟨2, ![50000, 1]⟩
abbrev S2000x128 : Shape := ⟨2, ![2000, 128]⟩
abbrev S2000x256 : Shape := ⟨2, ![2000, 256]⟩

abbrev nBuf : Space → Nat
  | .hbm => 74
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S1x64, .f32⟩
  | .hbm, ⟨4, _⟩ => ⟨S50000, .i32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S384x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S1, .i32⟩
  | .hbm, ⟨26, _⟩ => ⟨S_, .i32⟩
  | .hbm, ⟨27, _⟩ => ⟨S800000x1, .i32⟩
  | .hbm, ⟨28, _⟩ => ⟨S800000x1, .i1⟩
  | .hbm, ⟨29, _⟩ => ⟨S1x1, .i32⟩
  | .hbm, ⟨30, _⟩ => ⟨S800000x1, .i32⟩
  | .hbm, ⟨31, _⟩ => ⟨S800000x1, .i1⟩
  | .hbm, ⟨32, _⟩ => ⟨S800000x1, .i1⟩
  | .hbm, ⟨33, _⟩ => ⟨S_, .i1⟩
  | .hbm, ⟨34, _⟩ => ⟨S800000, .i1⟩
  | .hbm, ⟨35, _⟩ => ⟨S800000x128, .f32⟩
  | .hbm, ⟨36, _⟩ => ⟨S800000x128, .i1⟩
  | .hbm, ⟨37, _⟩ => ⟨S_, .f32⟩
  | .hbm, ⟨38, _⟩ => ⟨S800000x128, .f32⟩
  | .hbm, ⟨39, _⟩ => ⟨S800000x128, .f32⟩
  | .hbm, ⟨40, _⟩ => ⟨S800000x128, .bf16⟩
  | .hbm, ⟨41, _⟩ => ⟨S800000x128, .bf16⟩
  | .hbm, ⟨42, _⟩ => ⟨S128x256, .f32⟩
  | .hbm, ⟨43, _⟩ => ⟨S128x256, .bf16⟩
  | .hbm, ⟨44, _⟩ => ⟨S128x256, .f32⟩
  | .hbm, ⟨45, _⟩ => ⟨S128x256, .bf16⟩
  | .hbm, ⟨46, _⟩ => ⟨S256x256, .bf16⟩
  | .hbm, ⟨47, _⟩ => ⟨S1x256, .f32⟩
  | .hbm, ⟨48, _⟩ => ⟨S1x256, .f32⟩
  | .hbm, ⟨49, _⟩ => ⟨S800000x256, .f32⟩
  | .hbm, ⟨50, _⟩ => ⟨S_, .f32⟩
  | .hbm, ⟨51, _⟩ => ⟨S50000x256, .f32⟩
  | .hbm, ⟨52, _⟩ => ⟨S800000x1, .i32⟩
  | .hbm, ⟨53, _⟩ => ⟨S50000x256, .f32⟩
  | .hbm, ⟨54, _⟩ => ⟨S_, .f32⟩
  | .hbm, ⟨55, _⟩ => ⟨S800000, .f32⟩
  | .hbm, ⟨56, _⟩ => ⟨S_, .f32⟩
  | .hbm, ⟨57, _⟩ => ⟨S50000, .f32⟩
  | .hbm, ⟨58, _⟩ => ⟨S800000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x256, .f32⟩
  | .hbm, ⟨65, _⟩ => ⟨S50000x256, .f32⟩
  | .hbm, ⟨66, _⟩ => ⟨S128x256, .f32⟩
  | .hbm, ⟨67, _⟩ => ⟨S128x256, .bf16⟩
  | .hbm, ⟨68, _⟩ => ⟨S256x256, .f32⟩
  | .hbm, ⟨69, _⟩ => ⟨S256x256, .bf16⟩
  | .hbm, ⟨70, _⟩ => ⟨S256x256, .bf16⟩
  | .hbm, ⟨71, _⟩ => ⟨S1x256, .f32⟩
  | .hbm, ⟨72, _⟩ => ⟨S1x256, .f32⟩
  | .hbm, ⟨73, _⟩ => ⟨S50000x256, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S128x256, .bf16⟩
  | .local _ .vmem, ⟨5, _⟩ => ⟨S128x256, .bf16⟩
  | .local _ .vmem, ⟨6, _⟩ => ⟨S256x256, .bf16⟩
  | .local _ .vmem, ⟨7, _⟩ => ⟨S1x256, .f32⟩
  | .local _ .vmem, ⟨8, _⟩ => ⟨S1x256, .f32⟩
  | .local _ .vmem, ⟨9, _⟩ => ⟨S4000x256, .f32⟩
  | .local _ .vmem, ⟨10, _⟩ => ⟨S4000x256, .f32⟩
  | .local _ .vmem, ⟨11, _⟩ => ⟨S2000x128, .f32⟩
  | .local _ .vmem, ⟨12, _⟩ => ⟨S2000x128, .f32⟩
  | .local _ .vmem, ⟨13, _⟩ => ⟨S2000x256, .f32⟩
  | .local _ .vmem, ⟨14, _⟩ => ⟨S2000x256, .f32⟩
  | .local _ .vmem, ⟨15, _⟩ => ⟨S128x256, .bf16⟩
  | .local _ .vmem, ⟨16, _⟩ => ⟨S256x256, .bf16⟩
  | .local _ .vmem, ⟨17, _⟩ => ⟨S256x256, .bf16⟩
  | .local _ .vmem, ⟨18, _⟩ => ⟨S1x256, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_cst : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_cst_0 : Ref sig .tc := ⟨.hbm, 54, rfl⟩
abbrev main_v18 : Ref sig .tc := ⟨.hbm, 55, rfl⟩
abbrev main_cst_1 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_cst_2 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bitsLt_bf16_f32 : FTy.bits .bf16 < FTy.bits .f32
  slices_S256x256_S128x256_0_0 : S256x256.Slices ![0, 0] S128x256
  slices_S256x256_S128x256_128_0 : S256x256.Slices ![128, 0] S128x256
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4000x256_S4000x256_0_0 : ∀ a, (![0, 0] : Fin 2 → Nat) a + S4000x256.size a ≤ S4000x256.size a
  h_S4000x256 : 0 < S4000x256.numel
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  slices_S384x256_S128x256_0_0 : S384x256.Slices ![0, 0] S128x256
  slices_S384x256_S256x256_128_0 : S384x256.Slices ![128, 0] S256x256
  inb_S2000x128_S2000x128_0_0 : ∀ a, (![0, 0] : Fin 2 → Nat) a + S2000x128.size a ≤ S2000x128.size a
  h_S2000x128 : 0 < S2000x128.numel
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S1x256_S2000x256 : S1x256.Broadcasts S2000x256
  gather_S50000x128_S800000x1_S800000x128_1_0_n_n_0_1_1128_wf : GatherDims.WF S50000x128 S800000x1 S800000x128 [1] [0] [] [0] [] 1 ![1, 128]
  dot_S4000x128_S128x256_S4000x256_1_0_0_1_n_n_wf : DotDims.WF S4000x128 S128x256 S4000x256 [1] [0] [0] [1] [] []
  dot_S4000x256_S256x256_S4000x256_1_0_0_1_n_n_wf : DotDims.WF S4000x256 S256x256 S4000x256 [1] [0] [0] [1] [] []
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .bf16 = 32 ∨ (Rect.block (s := S800000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .bf16 = 32 ∨ (Rect.block (s := S800000x128) S4000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x256.size a ≤ S800000x256.size a
  hwx0_7 : ∀ i : grid0.Coords, EltTy.bits .f32 = 32 ∨ (Rect.block (s := S800000x256) S4000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .bf16 = 32 ∨ (Rect.block (s := S128x256) S128x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S50000x256.size a
  hwx1_7 : ∀ i : grid1.Coords, EltTy.bits .f32 = 32 ∨ (Rect.block (s := S50000x256) S2000x256.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v5) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S4000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x128 : Shape := ⟨2, ![800000, 128]⟩
abbrev S1x64 : Shape := ⟨2, ![1, 64]⟩
abbrev S50000 : Shape := ⟨1, ![50000]⟩
abbrev S256x256 : Shape := ⟨2, ![256, 256]⟩
abbrev S256 : Shape := ⟨1, ![256]⟩
abbrev S384x256 : Shape := ⟨2, ![384, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S50000x256 : Shape := ⟨2, ![50000, 256]⟩
abbrev S50000x1 : Shape := ⟨2, ![50000, 1]⟩
abbrev S50000x384 : Shape := ⟨2, ![50000, 384]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S1x64, .f32⟩
  | .hbm, ⟨4, _⟩ => ⟨S50000, .i32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S384x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S800000x256, .f32⟩
  | .hbm, ⟨27, _⟩ => ⟨S800000x256, .f32⟩
  | .hbm, ⟨28, _⟩ => ⟨S1x256, .f32⟩
  | .hbm, ⟨29, _⟩ => ⟨S800000x256, .f32⟩
  | .hbm, ⟨30, _⟩ => ⟨S800000x256, .f32⟩
  | .hbm, ⟨31, _⟩ => ⟨S_, .f32⟩
  | .hbm, ⟨32, _⟩ => ⟨S800000x256, .f32⟩
  | .hbm, ⟨33, _⟩ => ⟨S800000x256, .i1⟩
  | .hbm, ⟨34, _⟩ => ⟨S_, .f32⟩
  | .hbm, ⟨35, _⟩ => ⟨S800000x256, .f32⟩
  | .hbm, ⟨36, _⟩ => ⟨S800000x256, .i1⟩
  | .hbm, ⟨37, _⟩ => ⟨S_, .f32⟩
  | .hbm, ⟨38, _⟩ => ⟨S_, .f32⟩
  | .hbm, ⟨39, _⟩ => ⟨S800000x256, .f32⟩
  | .hbm, ⟨40, _⟩ => ⟨S800000x256, .f32⟩
  | .hbm, ⟨41, _⟩ => ⟨S800000x256, .f32⟩
  | .hbm, ⟨42, _⟩ => ⟨S_, .f32⟩
  | .hbm, ⟨43, _⟩ => ⟨S800000x256, .f32⟩
  | .hbm, ⟨44, _⟩ => ⟨S800000x256, .f32⟩
  | .hbm, ⟨45, _⟩ => ⟨S800000x256, .f32⟩
  | .hbm, ⟨46, _⟩ => ⟨S800000x256, .f32⟩
  | .hbm, ⟨47, _⟩ => ⟨S1x256, .f32⟩
  | .hbm, ⟨48, _⟩ => ⟨S800000x256, .f32⟩
  | .hbm, ⟨49, _⟩ => ⟨S800000x256, .f32⟩
  | .hbm, ⟨50, _⟩ => ⟨S_, .f32⟩
  | .hbm, ⟨51, _⟩ => ⟨S50000x256, .f32⟩
  | .hbm, ⟨52, _⟩ => ⟨S800000x1, .i32⟩
  | .hbm, ⟨53, _⟩ => ⟨S50000x256, .f32⟩
  | .hbm, ⟨54, _⟩ => ⟨S_, .f32⟩
  | .hbm, ⟨55, _⟩ => ⟨S800000, .f32⟩
  | .hbm, ⟨56, _⟩ => ⟨S_, .f32⟩
  | .hbm, ⟨57, _⟩ => ⟨S50000, .f32⟩
  | .hbm, ⟨58, _⟩ => ⟨S800000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x256, .f32⟩
  | .hbm, ⟨65, _⟩ => ⟨S50000x256, .f32⟩
  | .hbm, ⟨66, _⟩ => ⟨S50000x384, .f32⟩
  | .hbm, ⟨67, _⟩ => ⟨S50000x256, .f32⟩
  | .hbm, ⟨68, _⟩ => ⟨S1x256, .f32⟩
  | .hbm, ⟨69, _⟩ => ⟨S50000x256, .f32⟩
  | .hbm, ⟨70, _⟩ => ⟨S50000x256, .f32⟩
  | .hbm, ⟨71, _⟩ => ⟨S_, .f32⟩
  | .hbm, ⟨72, _⟩ => ⟨S50000x256, .f32⟩
  | .hbm, ⟨73, _⟩ => ⟨S50000x256, .i1⟩
  | .hbm, ⟨74, _⟩ => ⟨S_, .f32⟩
  | .hbm, ⟨75, _⟩ => ⟨S50000x256, .f32⟩
  | .hbm, ⟨76, _⟩ => ⟨S50000x256, .i1⟩
  | .hbm, ⟨77, _⟩ => ⟨S_, .f32⟩
  | .hbm, ⟨78, _⟩ => ⟨S_, .f32⟩
  | .hbm, ⟨79, _⟩ => ⟨S50000x256, .f32⟩
  | .hbm, ⟨80, _⟩ => ⟨S50000x256, .f32⟩
  | .hbm, ⟨81, _⟩ => ⟨S50000x256, .f32⟩
  | .hbm, ⟨82, _⟩ => ⟨S_, .f32⟩
  | .hbm, ⟨83, _⟩ => ⟨S50000x256, .f32⟩
  | .hbm, ⟨84, _⟩ => ⟨S50000x256, .f32⟩
  | .hbm, ⟨85, _⟩ => ⟨S50000x256, .f32⟩
  | .hbm, ⟨86, _⟩ => ⟨S50000x256, .f32⟩
  | .hbm, ⟨87, _⟩ => ⟨S1x256, .f32⟩
  | .hbm, ⟨88, _⟩ => ⟨S50000x256, .f32⟩
  | .hbm, ⟨89, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_cst_0 : Ref sig .tc := ⟨.hbm, 34, rfl⟩
abbrev main_call0_v2 : Ref sig .tc := ⟨.hbm, 35, rfl⟩
abbrev main_call0_v3 : Ref sig .tc := ⟨.hbm, 36, rfl⟩
abbrev main_call0_cst_1 : Ref sig .tc := ⟨.hbm, 37, rfl⟩
abbrev main_call0_call0_v0 : Ref sig .tc := ⟨.hbm, 38, rfl⟩
abbrev main_call0_call0_v1 : Ref sig .tc := ⟨.hbm, 39, rfl⟩
abbrev main_call0_v4 : Ref sig .tc := ⟨.hbm, 40, rfl⟩
abbrev main_call0_v5 : Ref sig .tc := ⟨.hbm, 41, rfl⟩
abbrev main_call0_cst_2 : Ref sig .tc := ⟨.hbm, 42, rfl⟩
abbrev main_call0_v6 : Ref sig .tc := ⟨.hbm, 43, rfl⟩
abbrev main_call0_v7 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_1 : Ref sig .tc := ⟨.hbm, 54, rfl⟩
abbrev main_v24 : Ref sig .tc := ⟨.hbm, 55, rfl⟩
abbrev main_cst_2 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_3 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_call1_cst : Ref sig .tc := ⟨.hbm, 71, rfl⟩
abbrev main_call1_v0 : Ref sig .tc := ⟨.hbm, 72, rfl⟩
abbrev main_call1_v1 : Ref sig .tc := ⟨.hbm, 73, rfl⟩
abbrev main_call1_cst_0 : Ref sig .tc := ⟨.hbm, 74, rfl⟩
abbrev main_call1_v2 : Ref sig .tc := ⟨.hbm, 75, rfl⟩
abbrev main_call1_v3 : Ref sig .tc := ⟨.hbm, 76, rfl⟩
abbrev main_call1_cst_1 : Ref sig .tc := ⟨.hbm, 77, rfl⟩
abbrev main_call1_call0_v0 : Ref sig .tc := ⟨.hbm, 78, rfl⟩
abbrev main_call1_call0_v1 : Ref sig .tc := ⟨.hbm, 79, rfl⟩
abbrev main_call1_v4 : Ref sig .tc := ⟨.hbm, 80, rfl⟩
abbrev main_call1_v5 : Ref sig .tc := ⟨.hbm, 81, rfl⟩
abbrev main_call1_cst_2 : Ref sig .tc := ⟨.hbm, 82, rfl⟩
abbrev main_call1_v6 : Ref sig .tc := ⟨.hbm, 83, rfl⟩
abbrev main_call1_v7 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  concatenates_S50000x128_S50000x256_S50000x384_d1 : Shape.Concatenates [S50000x128, S50000x256] S50000x384 1
  bcast_S1x256_S50000x256_0_1 : S1x256.BroadcastsInDim S50000x256 (![0, 1] : Fin 2 → Fin S50000x256.rank)
  gather_S50000x128_S800000x1_S800000x128_1_0_n_n_0_1_1128_wf : GatherDims.WF S50000x128 S800000x1 S800000x128 [1] [0] [] [0] [] 1 ![1, 128]
  dot_S800000x256_S256x256_S800000x256_1_0_0_1_n_n_wf : DotDims.WF S800000x256 S256x256 S800000x256 [1] [0] [0] [1] [] []
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x384_S384x256_S50000x256_1_0_0_1_n_n_wf : DotDims.WF S50000x384 S384x256 S50000x256 [1] [0] [0] [1] [] []
  dot_S50000x256_S256x256_S50000x256_1_0_0_1_n_n_wf : DotDims.WF S50000x256 S256x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x256_S800000x256_1_0_0_1_n_n : DotDims S800000x256 S256x256 S800000x256 where
  lhsContracting := [1]
  rhsContracting := [0]
  lhsNonContracting := [0]
  rhsNonContracting := [1]
  lhsBatch := []
  rhsBatch := []
  wf := dot_S800000x256_S256x256_S800000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x384_S384x256_S50000x256_1_0_0_1_n_n : DotDims S50000x384 S384x256 S50000x256 where
  lhsContracting := [1]
  rhsContracting := [0]
  lhsNonContracting := [0]
  rhsNonContracting := [1]
  lhsBatch := []
  rhsBatch := []
  wf := dot_S50000x384_S384x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Spec.lean ====
/-
  The mathematics both programs compute, as functions of the argument arrays at the extended reals.

  An edge's message is a two-layer perceptron of the concatenation [x[row(e)], edge_attr(e)]; a node's output is the same
  kind of perceptron of [x(n), mean(n)], where mean(n) is the average of the messages of the edges that point at n.
  A first layer over a concatenation [a, b] against stacked weights [Wa; Wb] is, entry by entry, the sum of the two
  partial contractions a · Wa + b · Wb, because a finite sum over 0..A+B-1 splits into the sums over its first A and its last B terms;
  the extended reals' addition is commutative and associative, so no finiteness is needed for that.
  The activation is ELU, p for p > 0 and e^p - 1 otherwise; writing its second branch as 1 · (e^q - 1) with
  q = (0 if p > 0 else p) changes nothing, since in that branch q = p and 1 · y = y on every extended real.
-/
import Idealize.ShloMosaic.PureOps.Ideal
import Idealize.ShloMosaic.Lib.ValueIdx
import Mathlib.Algebra.BigOperators.Fin

noncomputable section

open scoped BigOperators

namespace Cert.Spec

open Idealize.ShloMosaic Idealize.ShloMosaic.ValueIdx

/-- ELU on the extended reals: the identity on the positives, `e^p - 1` elsewhere. -/
def elu (p : EReal) : EReal := if 0 < p then p else Ideal.exp p - 1

/-- The same function in the spelling that guards the exponential's argument and scales by one. -/
theorem elu_guarded (p : EReal) :
    (if 0 < p then p else (1 : EReal) * (Ideal.exp (if 0 < p then (0 : EReal) else p) - 1)) = elu p := by
  unfold elu
  by_cases h : 0 < p
  · simp only [h, if_true]
  · simp only [h, if_false, one_mul]

/-- One entry of a two-layer perceptron whose first layer contracts two operand rows `xa`, `xb` against two weight
    blocks `wa`, `wb`: `(∑ₖ elu ((xa · wa)ₖ + (xb · wb)ₖ + b1ₖ) · w2ₖⱼ) + b2ⱼ`. -/
def mlpRow {A B H O : ℕ} (xa : Fin A → EReal) (xb : Fin B → EReal) (wa : Fin A → Fin H → EReal) (wb : Fin B → Fin H → EReal)
    (b1 : Fin H → EReal) (w2 : Fin H → Fin O → EReal) (b2 : Fin O → EReal) (j : Fin O) : EReal :=
  (∑ k : Fin H, elu (((∑ a : Fin A, xa a * wa a k) + (∑ b : Fin B, xb b * wb b k)) + b1 k) * w2 k j) + b2 j

/-- A contraction over a concatenated axis is the sum of the contractions over its two parts. -/
theorem sum_concat {A B : ℕ} (f : Fin (A + B) → EReal) :
    ∑ k : Fin (A + B), f k = (∑ a : Fin A, f (Fin.castAdd B a)) + (∑ b : Fin B, f (Fin.natAdd A b)) :=
  Fin.sum_univ_add f

abbrev SE128 : Shape := ⟨2, ![800000, 128]⟩
abbrev SE256 : Shape := ⟨2, ![800000, 256]⟩
abbrev SN128 : Shape := ⟨2, ![50000, 128]⟩
abbrev SN256 : Shape := ⟨2, ![50000, 256]⟩
abbrev SW128 : Shape := ⟨2, ![128, 256]⟩
abbrev SW256 : Shape := ⟨2, ![256, 256]⟩
abbrev SB256 : Shape := ⟨2, ![1, 256]⟩

/-- Rows `off, …, off + R - 1` of a 256-column matrix of `n` rows (a block of a stacked weight matrix). -/
def rows (off R n : ℕ) (h : off + R ≤ n) (w : (⟨2, ![n, 256]⟩ : Shape).Idx → EReal) : (⟨2, ![R, 256]⟩ : Shape).Idx → EReal :=
  fun i => w (ix2 (⟨off + (i 0 : Fin R).val, lt_of_lt_of_le (Nat.add_lt_add_left (i 0 : Fin R).isLt off) h⟩ : Fin n) (i 1 : Fin 256))

theorem rows_apply (off R n : ℕ) (h : off + R ≤ n) (w : (⟨2, ![n, 256]⟩ : Shape).Idx → EReal) (a : Fin R) (k : Fin 256) :
    rows off R n h w (ix2 a k) = w (ix2 (⟨off + a.val, lt_of_lt_of_le (Nat.add_lt_add_left a.isLt off) h⟩ : Fin n) k) := rfl

/-- A vector of 256 entries as a matrix of one row. -/
def asRow (b : (⟨1, ![256]⟩ : Shape).Idx → EReal) : (⟨2, ![1, 256]⟩ : Shape).Idx → EReal :=
  fun i => b (ix1 (i 1 : Fin 256))

theorem asRow_apply (b : (⟨1, ![256]⟩ : Shape).Idx → EReal) (z : Fin 1) (k : Fin 256) : asRow b (ix2 z k) = b (ix1 k) := rfl

/-- The edge messages: row `e`, column `j` is the perceptron of the gathered node row `xr e` and the edge's own row
    `ea e`, first-layer weights `wx` (for the node half) and `we` (for the edge half). -/
def edgeG (xr ea : SE128.Idx → EReal) (wx we : SW128.Idx → EReal) (w2 : SW256.Idx → EReal) (b1 b2 : SB256.Idx → EReal) :
    SE256.Idx → EReal := fun i =>
  mlpRow (fun a : Fin 128 => xr (ix2 (i 0 : Fin 800000) a)) (fun b : Fin 128 => ea (ix2 (i 0 : Fin 800000) b))
    (fun a k => wx (ix2 a k)) (fun b k => we (ix2 b k)) (fun k : Fin 256 => b1 (ix2 (0 : Fin 1) k))
    (fun k j => w2 (ix2 k j)) (fun j : Fin 256 => b2 (ix2 (0 : Fin 1) j)) (i 1 : Fin 256)

/-- The node outputs: row `n`, column `j` is the perceptron of the node's own row `x n` and its mean message `mn n`,
    first-layer weights `wx` (node half, 128 rows) and `wm` (message half, 256 rows). -/
def nodeG (x : SN128.Idx → EReal) (mn : SN256.Idx → EReal) (wx : SW128.Idx → EReal) (wm : SW256.Idx → EReal)
    (w2 : SW256.Idx → EReal) (b1 b2 : SB256.Idx → EReal) : SN256.Idx → EReal := fun i =>
  mlpRow (fun a : Fin 128 => x (ix2 (i 0 : Fin 50000) a)) (fun b : Fin 256 => mn (ix2 (i 0 : Fin 50000) b))
    (fun a k => wx (ix2 a k)) (fun b k => wm (ix2 b k)) (fun k : Fin 256 => b1 (ix2 (0 : Fin 1) k))
    (fun k j => w2 (ix2 k j)) (fun j : Fin 256 => b2 (ix2 (0 : Fin 1) j)) (i 1 : Fin 256)

theorem edgeG_apply (xr ea : SE128.Idx → EReal) (wx we : SW128.Idx → EReal) (w2 : SW256.Idx → EReal) (b1 b2 : SB256.Idx → EReal)
    (e : Fin 800000) (j : Fin 256) :
    edgeG xr ea wx we w2 b1 b2 (ix2 e j) =
      mlpRow (fun a : Fin 128 => xr (ix2 e a)) (fun b : Fin 128 => ea (ix2 e b)) (fun a k => wx (ix2 a k)) (fun b k => we (ix2 b k))
        (fun k : Fin 256 => b1 (ix2 (0 : Fin 1) k)) (fun k j => w2 (ix2 k j)) (fun j : Fin 256 => b2 (ix2 (0 : Fin 1) j)) j := rfl

theorem nodeG_apply (x : SN128.Idx → EReal) (mn : SN256.Idx → EReal) (wx : SW128.Idx → EReal) (wm : SW256.Idx → EReal)
    (w2 : SW256.Idx → EReal) (b1 b2 : SB256.Idx → EReal) (n : Fin 50000) (j : Fin 256) :
    nodeG x mn wx wm w2 b1 b2 (ix2 n j) =
      mlpRow (fun a : Fin 128 => x (ix2 n a)) (fun b : Fin 256 => mn (ix2 n b)) (fun a k => wx (ix2 a k)) (fun b k => wm (ix2 b k))
        (fun k : Fin 256 => b1 (ix2 (0 : Fin 1) k)) (fun k j => w2 (ix2 k j)) (fun j : Fin 256 => b2 (ix2 (0 : Fin 1) j)) j := rfl

end Cert.Spec

end
-- ==== Proof.Region0.lean ====
/-
  The first region's output array. The grid has 200 points; point t stages rows 4000·t … 4000·t + 3999 of the two operand arrays and the whole of each weight and bias array, and writes back rows 4000·t … 4000·t + 3999 of the output. What the body leaves in the output block is, entry by entry, the perceptron row of the specification at the block's rows; the 200 blocks tile the array, so the array after the region is the edge-message function of the arrays the region was entered with.
-/
import proofs.«419081_j91122026152383_1_alg».proof.Proof.Gen.KernelIdeal.Frame
import proofs.«419081_j91122026152383_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem Cert.KernelIdeal Cert.KernelIdeal.Gen
open Idealize.ShloMosaic.Pipeline (Dat Cfg Window)
open scoped BigOperators

/-! ## The block products at an entry

Each of the body's three matrix products contracts axis 1 of its left operand against axis 0 of its right operand and
starts from the zero block, so an entry of the product is the plain sum over the contracted coordinate. The four facts
below say, per operand and per axis, which coordinate of the result index or of the contraction index an operand index
carries. -/

private theorem lhsA_0 (j : S4000x256.Idx) (k : dot_S4000x128_S128x256_S4000x256_1_0_0_1_n_n.contr.Idx) :
    (dot_S4000x128_S128x256_S4000x256_1_0_0_1_n_n.lhsIdx j k 0).val = (j 0).val := by
  simp [DotDims.lhsIdx, dot_S4000x128_S128x256_S4000x256_1_0_0_1_n_n]; rfl

private theorem lhsA_1 (j : S4000x256.Idx) (k : dot_S4000x128_S128x256_S4000x256_1_0_0_1_n_n.contr.Idx) :
    (dot_S4000x128_S128x256_S4000x256_1_0_0_1_n_n.lhsIdx j k 1).val = (k ⟨0, by decide⟩).val := by
  simp [DotDims.lhsIdx, dot_S4000x128_S128x256_S4000x256_1_0_0_1_n_n]; rfl

private theorem rhsA_0 (j : S4000x256.Idx) (k : dot_S4000x128_S128x256_S4000x256_1_0_0_1_n_n.contr.Idx) :
    (dot_S4000x128_S128x256_S4000x256_1_0_0_1_n_n.rhsIdx j k 0).val = (k ⟨0, by decide⟩).val := by
  simp [DotDims.rhsIdx, dot_S4000x128_S128x256_S4000x256_1_0_0_1_n_n]; rfl

private theorem rhsA_1 (j : S4000x256.Idx) (k : dot_S4000x128_S128x256_S4000x256_1_0_0_1_n_n.contr.Idx) :
    (dot_S4000x128_S128x256_S4000x256_1_0_0_1_n_n.rhsIdx j k 1).val = (j 1).val := by
  simp [DotDims.rhsIdx, dot_S4000x128_S128x256_S4000x256_1_0_0_1_n_n]; rfl

private theorem lhsB_0 (j : S4000x256.Idx) (k : dot_S4000x256_S256x256_S4000x256_1_0_0_1_n_n.contr.Idx) :
    (dot_S4000x256_S256x256_S4000x256_1_0_0_1_n_n.lhsIdx j k 0).val = (j 0).val := by
  simp [DotDims.lhsIdx, dot_S4000x256_S256x256_S4000x256_1_0_0_1_n_n]; rfl

private theorem lhsB_1 (j : S4000x256.Idx) (k : dot_S4000x256_S256x256_S4000x256_1_0_0_1_n_n.contr.Idx) :
    (dot_S4000x256_S256x256_S4000x256_1_0_0_1_n_n.lhsIdx j k 1).val = (k ⟨0, by decide⟩).val := by
  simp [DotDims.lhsIdx, dot_S4000x256_S256x256_S4000x256_1_0_0_1_n_n]; rfl

private theorem rhsB_0 (j : S4000x256.Idx) (k : dot_S4000x256_S256x256_S4000x256_1_0_0_1_n_n.contr.Idx) :
    (dot_S4000x256_S256x256_S4000x256_1_0_0_1_n_n.rhsIdx j k 0).val = (k ⟨0, by decide⟩).val := by
  simp [DotDims.rhsIdx, dot_S4000x256_S256x256_S4000x256_1_0_0_1_n_n]; rfl

private theorem rhsB_1 (j : S4000x256.Idx) (k : dot_S4000x256_S256x256_S4000x256_1_0_0_1_n_n.contr.Idx) :
    (dot_S4000x256_S256x256_S4000x256_1_0_0_1_n_n.rhsIdx j k 1).val = (j 1).val := by
  simp [DotDims.rhsIdx, dot_S4000x256_S256x256_S4000x256_1_0_0_1_n_n]; rfl

/-- A 4000×128 block times a 128×256 matrix, into the zero block: entry (p, q) is `∑ₐ x[p, a] · w[a, q]`. -/
private theorem prodA_apply (x : FVec Ideal S4000x128 .bf16) (w : FVec Ideal S128x256 .bf16) (p : Fin 4000) (q : Fin 256) :
    FloatOps.matmul dot_S4000x128_S128x256_S4000x256_1_0_0_1_n_n none x w (constant (F := Ideal) S4000x256 .f32 0x00000000#32) (ix2 p q)
      = ∑ a : Fin 128, x (ix2 p a) * w (ix2 a q) := by
  rw [Ideal.matmul_constant_zero_apply,
    ← Equiv.sum_comp (contrEquiv1 dot_S4000x128_S128x256_S4000x256_1_0_0_1_n_n 128 rfl rfl).symm]
  refine Finset.sum_congr rfl fun a _ => ?_
  have ca := contrEquiv1_symm_val dot_S4000x128_S128x256_S4000x256_1_0_0_1_n_n 128 rfl rfl a
  have l : dot_S4000x128_S128x256_S4000x256_1_0_0_1_n_n.lhsIdx (ix2 p q) ((contrEquiv1 _ 128 rfl rfl).symm a) = ix2 p a := by
    funext ax; apply Fin.ext
    match ax with
    | ⟨0, _⟩ => exact lhsA_0 _ _
    | ⟨1, _⟩ => exact (lhsA_1 _ _).trans ca
  have r : dot_S4000x128_S128x256_S4000x256_1_0_0_1_n_n.rhsIdx (ix2 p q) ((contrEquiv1 _ 128 rfl rfl).symm a) = ix2 a q := by
    funext ax; apply Fin.ext
    match ax with
    | ⟨0, _⟩ => exact (rhsA_0 _ _).trans ca
    | ⟨1, _⟩ => exact rhsA_1 _ _
  rw [l, r]

/-- A 4000×256 block times a 256×256 matrix, into the zero block: entry (p, q) is `∑ₖ h[p, k] · w[k, q]`. -/
private theorem prodB_apply (x : FVec Ideal S4000x256 .bf16) (w : FVec Ideal S256x256 .bf16) (p : Fin 4000) (q : Fin 256) :
    FloatOps.matmul dot_S4000x256_S256x256_S4000x256_1_0_0_1_n_n none x w (constant (F := Ideal) S4000x256 .f32 0x00000000#32) (ix2 p q)
      = ∑ a : Fin 256, x (ix2 p a) * w (ix2 a q) := by
  rw [Ideal.matmul_constant_zero_apply,
    ← Equiv.sum_comp (contrEquiv1 dot_S4000x256_S256x256_S4000x256_1_0_0_1_n_n 256 rfl rfl).symm]
  refine Finset.sum_congr rfl fun a _ => ?_
  have ca := contrEquiv1_symm_val dot_S4000x256_S256x256_S4000x256_1_0_0_1_n_n 256 rfl rfl a
  have l : dot_S4000x256_S256x256_S4000x256_1_0_0_1_n_n.lhsIdx (ix2 p q) ((contrEquiv1 _ 256 rfl rfl).symm a) = ix2 p a := by
    funext ax; apply Fin.ext
    match ax with
    | ⟨0, _⟩ => exact lhsB_0 _ _
    | ⟨1, _⟩ => exact (lhsB_1 _ _).trans ca
  have r : dot_S4000x256_S256x256_S4000x256_1_0_0_1_n_n.rhsIdx (ix2 p q) ((contrEquiv1 _ 256 rfl rfl).symm a) = ix2 a q := by
    funext ax; apply Fin.ext
    match ax with
    | ⟨0, _⟩ => exact (rhsB_0 _ _).trans ca
    | ⟨1, _⟩ => exact rhsB_1 _ _
  rw [l, r]

/-! ## The body's arithmetic at an entry -/

/-- The activation as the body spells it on one extended real — keep `a` where `a > 0`, otherwise `e^a` less the
    word of the float one — is ELU: the comparison with the zero word is the order's `0 < a`, and the one word is `1`. -/
private theorem select_exp_eq_elu (a : EReal) :
    Scalar.select (Ideal.cmp .ogt a (Ideal.ofBits .f32 0x00000000#32)) a (Ideal.exp a - Ideal.ofBits .f32 0x3F800000#32)
      = Cert.Spec.elu a := by
  rw [Ideal.ofBits_zero_f32, Ideal.ofBits_one_f32]
  unfold Cert.Spec.elu Ideal.cmp Scalar.select
  by_cases h : 0 < a
  · simp [h]
  · simp [h]

/-- The same on a whole block, read at one entry; narrowing the result to the shorter format changes nothing at the
    extended reals. -/
private theorem activation_apply (H : FVec Ideal S4000x256 .f32) (i : S4000x256.Idx) :
    (truncf .bf16 (select (cmpf .ogt H (broadcast S4000x256 (Scalar.ofBits (F := Ideal) .f32 0x00000000#32))) H
        (subf (exp H) (broadcast S4000x256 (Scalar.ofBits (F := Ideal) .f32 0x3F800000#32)))) bitsLt_bf16_f32 : FVec Ideal S4000x256 .bf16) i
      = Cert.Spec.elu (H i) :=
  select_exp_eq_elu (H i)

/-- Entry (p, k) of the first layer before the activation: row p of the first operand block against column k of its
    weights, plus the same for the second operand block, plus entry k of the bias row (the one row is read at every p). -/
private theorem hidden_apply (x0 x1 : FVec Ideal S4000x128 .bf16) (x2 x3 : FVec Ideal S128x256 .bf16) (xb1 : FVec Ideal S1x256 .f32)
    (p : Fin 4000) (k : Fin 256) :
    addf (addf (matmul dot_S4000x128_S128x256_S4000x256_1_0_0_1_n_n none x0 x2 (constant (F := Ideal) S4000x256 .f32 0x00000000#32))
          (matmul dot_S4000x128_S128x256_S4000x256_1_0_0_1_n_n none x1 x3 (constant (F := Ideal) S4000x256 .f32 0x00000000#32)))
        (broadcastTo S4000x256 xb1 broadcasts_S1x256_S4000x256) (ix2 p k)
      = ((∑ a : Fin 128, x0 (ix2 p a) * x2 (ix2 a k)) + (∑ b : Fin 128, x1 (ix2 p b) * x3 (ix2 b k))) + xb1 (ix2 (0 : Fin 1) k) := by
  refine (addf_apply _ _ _).trans ?_
  refine congrArg₂ (· + ·) ?_ (broadcastTo_1b_ab_apply _ _ p k)
  refine (addf_apply _ _ _).trans ?_
  exact congrArg₂ (· + ·) (prodA_apply _ _ p k) (prodA_apply _ _ p k)

/-- Entry (p, q) of what the body stores: the two first-layer products of row p added, the first bias added, ELU taken
    entry by entry, the result contracted against the second-layer weights, the second bias added — the specification's
    perceptron row over row p of the two operand blocks. -/
theorem payload_apply (x0 x1 : Vec Ideal S4000x128 .bf16) (x2 x3 : Vec Ideal S128x256 .bf16) (xb1 : Vec Ideal S1x256 .f32)
    (xw2 : Vec Ideal S256x256 .bf16) (xb2 : Vec Ideal S1x256 .f32) (p : Fin 4000) (q : Fin 256) :
    k0_pay1 (F := Ideal) x0 x1 x2 x3 xb1 xw2 xb2 (ix2 p q)
      = Cert.Spec.mlpRow (fun a : Fin 128 => x0 (ix2 p a)) (fun b : Fin 128 => x1 (ix2 p b)) (fun a k => x2 (ix2 a k))
          (fun b k => x3 (ix2 b k)) (fun k : Fin 256 => xb1 (ix2 (0 : Fin 1) k)) (fun k j => xw2 (ix2 k j))
          (fun j : Fin 256 => xb2 (ix2 (0 : Fin 1) j)) q := by
  unfold k0_pay1 Cert.Spec.mlpRow
  simp only [shapeCast_self]
  refine (addf_apply _ _ _).trans ?_
  refine congrArg₂ (· + ·) ?_ (broadcastTo_1b_ab_apply _ _ p q)
  refine (prodB_apply _ _ p q).trans ?_
  refine Finset.sum_congr rfl fun k _ => ?_
  refine congrArg (· * xw2 (ix2 k q)) ?_
  refine (activation_apply _ (ix2 p k)).trans ?_
  exact congrArg Cert.Spec.elu (hidden_apply x0 x1 x2 x3 xb1 p k)

/-! ## From the blocks to the array -/

/-- Every access of the body starts at the corner of its staging block. -/
private theorem corner : (![0, 0] : Fin 2 → Nat) = fun _ => 0 := funext fun a => by fin_cases a <;> rfl

/-- The index maps over the grid: at point t the two operand windows and the output window are at row block t, column
    block 0, and each weight or bias window is its whole array; the grid has 200 points. -/
private theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 ∧ t.val < 200 :=
  (by decide +kernel : ∀ t : Fin grid0.N, _)

/-- The body's stored entry (p, q) over blocks that hold row r of the two operand arrays at their row p, and the weight
    and bias arrays entire, is the edge-message function of the arrays at (r, q). -/
private theorem stored_entry (A0 A1 : Cert.Spec.SE128.Idx → EReal) (W0 W1 : Cert.Spec.SW128.Idx → EReal)
    (W2 : Cert.Spec.SW256.Idx → EReal) (B1 B2 : Cert.Spec.SB256.Idx → EReal)
    (x0 x1 : Vec Ideal S4000x128 .bf16) (x2 x3 : Vec Ideal S128x256 .bf16) (xb1 : Vec Ideal S1x256 .f32)
    (xw2 : Vec Ideal S256x256 .bf16) (xb2 : Vec Ideal S1x256 .f32) (r : Fin 800000) (p : Fin 4000) (q : Fin 256)
    (h0 : ∀ a : Fin 128, x0 (ix2 p a) = A0 (ix2 r a)) (h1 : ∀ b : Fin 128, x1 (ix2 p b) = A1 (ix2 r b))
    (h2 : ∀ (a : Fin 128) (k : Fin 256), x2 (ix2 a k) = W0 (ix2 a k))
    (h3 : ∀ (b : Fin 128) (k : Fin 256), x3 (ix2 b k) = W1 (ix2 b k))
    (h4 : ∀ (k j : Fin 256), xw2 (ix2 k j) = W2 (ix2 k j))
    (h5 : ∀ (z : Fin 1) (k : Fin 256), xb1 (ix2 z k) = B1 (ix2 z k))
    (h6 : ∀ (z : Fin 1) (j : Fin 256), xb2 (ix2 z j) = B2 (ix2 z j)) :
    k0_pay1 (F := Ideal) x0 x1 x2 x3 xb1 xw2 xb2 (ix2 p q) = Cert.Spec.edgeG A0 A1 W0 W1 W2 B1 B2 (ix2 r q) := by
  rw [payload_apply, Cert.Spec.edgeG_apply]
  simp only [h0, h1, h2, h3, h4, h5, h6]

variable (V : (c : Dev nD) → (b : Ref sig .tc) → Buf (Elt Ideal) ((c : Thread nD τ).loc b))

/-- What point t writes back is block t of the edge-message function of the arrays the region was entered with. -/
theorem written_block (c : Dev nD) (t : Fin cfg0.N) :
    (dat0 (F := Ideal) V c).flushed 7 t
      = ((cfg0.win 7).blk t).view.read (Elt Ideal) (Cert.Spec.edgeG (V c main_v5) (V c main_v6) (V c main_v8) (V c main_v10) (V c main_v11) (V c main_v12) (V c main_v13)) := by
  show (cfg0.win 7).cut (grid0.coords t) ((dat0 (F := Ideal) V c).after 7 t) = _
  rw [after0_7]
  unfold out0_7
  rw [View.canon_unit_zero corner]
  simp only [View.ld_unit_zero (S := S4000x128) corner, View.ld_unit_zero (S := S128x256) corner,
    View.ld_unit_zero (S := S256x256) corner, View.ld_unit_zero (S := S1x256) corner]
  obtain ⟨e00, e01, e10, e11, e20, e21, e30, e31, e40, e41, e50, e51, e60, e61, e70, e71, ht⟩ := index_facts t
  funext y
  obtain ⟨p, q, rfl⟩ : ∃ (p : Fin 4000) (q : Fin 256), y = ix2 p q := ⟨y 0, y 1, eq_ix2 y⟩
  have hp : p.val < 4000 := p.isLt
  have e7 : ((cfg0.win 7).blk t).view.emb (ix2 p q) = ix2 (⟨4000 * t.val + p.val, by omega⟩ : Fin 800000) q := by
    funext ax; apply Fin.ext
    match ax with
    | ⟨0, _⟩ => show win0_7.index t (0 : Fin 2) * 4000 + 1 * p.val = 4000 * t.val + p.val; rw [e70]; omega
    | ⟨1, _⟩ => show win0_7.index t (1 : Fin 2) * 256 + 1 * q.val = q.val; rw [e71]; omega
  show k0_pay1 (F := Ideal) (iblk0 V c 0 t) (iblk0 V c 1 t) (iblk0 V c 2 t) (iblk0 V c 3 t) (iblk0 V c 5 t) (iblk0 V c 4 t)
      (iblk0 V c 6 t) (ix2 p q)
    = Cert.Spec.edgeG (V c main_v5) (V c main_v6) (V c main_v8) (V c main_v10) (V c main_v11) (V c main_v12) (V c main_v13)
      (((cfg0.win 7).blk t).view.emb (ix2 p q))
  rw [e7]
  refine stored_entry (V c main_v5) (V c main_v6) (V c main_v8) (V c main_v10) (V c main_v11) (V c main_v12) (V c main_v13)
    (iblk0 V c 0 t) (iblk0 V c 1 t) (iblk0 V c 2 t) (iblk0 V c 3 t) (iblk0 V c 5 t) (iblk0 V c 4 t) (iblk0 V c 6 t)
    ⟨4000 * t.val + p.val, by omega⟩ p q ?_ ?_ ?_ ?_ ?_ ?_ ?_
  · intro a
    show V c main_v5 (((cfg0.win 0).blk t).view.emb (ix2 p a)) = V c main_v5 (ix2 _ a)
    refine congrArg (V c main_v5) (funext fun ax => Fin.ext ?_)
    match ax with
    | ⟨0, _⟩ => show win0_0.index t (0 : Fin 2) * 4000 + 1 * p.val = 4000 * t.val + p.val; rw [e00]; omega
    | ⟨1, _⟩ => show win0_0.index t (1 : Fin 2) * 128 + 1 * a.val = a.val; rw [e01]; omega
  · intro b
    show V c main_v6 (((cfg0.win 1).blk t).view.emb (ix2 p b)) = V c main_v6 (ix2 _ b)
    refine congrArg (V c main_v6) (funext fun ax => Fin.ext ?_)
    match ax with
    | ⟨0, _⟩ => show win0_1.index t (0 : Fin 2) * 4000 + 1 * p.val = 4000 * t.val + p.val; rw [e10]; omega
    | ⟨1, _⟩ => show win0_1.index t (1 : Fin 2) * 128 + 1 * b.val = b.val; rw [e11]; omega
  · intro a k
    show V c main_v8 (((cfg0.win 2).blk t).view.emb (ix2 a k)) = V c main_v8 (ix2 _ k)
    refine congrArg (V c main_v8) (funext fun ax => Fin.ext ?_)
    match ax with
    | ⟨0, _⟩ => show win0_2.index t (0 : Fin 2) * 128 + 1 * a.val = a.val; rw [e20]; omega
    | ⟨1, _⟩ => show win0_2.index t (1 : Fin 2) * 256 + 1 * k.val = k.val; rw [e21]; omega
  · intro b k
    show V c main_v10 (((cfg0.win 3).blk t).view.emb (ix2 b k)) = V c main_v10 (ix2 _ k)
    refine congrArg (V c main_v10) (funext fun ax => Fin.ext ?_)
    match ax with
    | ⟨0, _⟩ => show win0_3.index t (0 : Fin 2) * 128 + 1 * b.val = b.val; rw [e30]; omega
    | ⟨1, _⟩ => show win0_3.index t (1 : Fin 2) * 256 + 1 * k.val = k.val; rw [e31]; omega
  · intro k j
    show V c main_v11 (((cfg0.win 4).blk t).view.emb (ix2 k j)) = V c main_v11 (ix2 _ j)
    refine congrArg (V c main_v11) (funext fun ax => Fin.ext ?_)
    match ax with
    | ⟨0, _⟩ => show win0_4.index t (0 : Fin 2) * 256 + 1 * k.val = k.val; rw [e40]; omega
    | ⟨1, _⟩ => show win0_4.index t (1 : Fin 2) * 256 + 1 * j.val = j.val; rw [e41]; omega
  · intro z k
    show V c main_v12 (((cfg0.win 5).blk t).view.emb (ix2 z k)) = V c main_v12 (ix2 _ k)
    refine congrArg (V c main_v12) (funext fun ax => Fin.ext ?_)
    match ax with
    | ⟨0, _⟩ => show win0_5.index t (0 : Fin 2) * 1 + 1 * z.val = z.val; rw [e50]; omega
    | ⟨1, _⟩ => show win0_5.index t (1 : Fin 2) * 256 + 1 * k.val = k.val; rw [e51]; omega
  · intro z j
    show V c main_v13 (((cfg0.win 6).blk t).view.emb (ix2 z j)) = V c main_v13 (ix2 _ j)
    refine congrArg (V c main_v13) (funext fun ax => Fin.ext ?_)
    match ax with
    | ⟨0, _⟩ => show win0_6.index t (0 : Fin 2) * 1 + 1 * z.val = z.val; rw [e60]; omega
    | ⟨1, _⟩ => show win0_6.index t (1 : Fin 2) * 256 + 1 * j.val = j.val; rw [e61]; omega

/-- An index of the output array is in point t's block exactly when each coordinate is in the block's range. -/
private theorem mem_block (t : Fin cfg0.N) (i : S800000x256.Idx) :
    i ∈ ((cfg0.win 7).blk t).view.set ↔ ∀ a : Fin 2, win0_7.index t a * S4000x256.size a ≤ (i a).val
      ∧ (i a).val < win0_7.index t a * S4000x256.size a + S4000x256.size a := by
  show i ∈ ((View.whole main_v14).slice (win0_7.rect t)).set ↔ _
  rw [View.set_slice_whole, Rect.mem_set_unit]
  exact Iff.rfl

/-- The 200 blocks of 4000 rows tile the 800000 rows: row r is in the block of point r / 4000, which writes it back. -/
private theorem covered (i : S800000x256.Idx) :
    ∃ t : Fin cfg0.N, (cfg0.win 7).flush t = true ∧ i ∈ ((cfg0.win 7).blk t).view.set := by
  have hi0 : (i 0).val < 800000 := (i 0).isLt
  have hi1 : (i 1).val < 256 := (i 1).isLt
  have hN : grid0.N = 200 := N_0
  have hlt : (i 0).val / 4000 < cfg0.N := by show (i 0).val / 4000 < grid0.N; rw [hN]; omega
  refine ⟨⟨(i 0).val / 4000, hlt⟩, flush0_7 _, ?_⟩
  rw [mem_block]
  obtain ⟨-, -, -, -, -, -, -, -, -, -, -, -, -, -, e70, e71, -⟩ := index_facts ⟨(i 0).val / 4000, hlt⟩
  intro a
  match a with
  | ⟨0, _⟩ =>
    show win0_7.index ⟨(i 0).val / 4000, hlt⟩ (0 : Fin 2) * 4000 ≤ (i 0).val
      ∧ (i 0).val < win0_7.index ⟨(i 0).val / 4000, hlt⟩ (0 : Fin 2) * 4000 + 4000
    rw [e70]; show (i 0).val / 4000 * 4000 ≤ (i 0).val ∧ (i 0).val < (i 0).val / 4000 * 4000 + 4000; omega
  | ⟨1, _⟩ =>
    show win0_7.index ⟨(i 0).val / 4000, hlt⟩ (1 : Fin 2) * 256 ≤ (i 1).val
      ∧ (i 1).val < win0_7.index ⟨(i 0).val / 4000, hlt⟩ (1 : Fin 2) * 256 + 256
    rw [e71]; omega

theorem value (c : Dev nD) :
    (dat0 (F := Ideal) V c).arrAt 7 cfg0.N
      = Cert.Spec.edgeG (V c main_v5) (V c main_v6) (V c main_v8) (V c main_v10) (V c main_v11) (V c main_v12) (V c main_v13) :=
  (dat0 (F := Ideal) V c).arrAt_eq_of_cover 7 (Cert.Spec.edgeG (V c main_v5) (V c main_v6) (V c main_v8) (V c main_v10) (V c main_v11) (V c main_v12) (V c main_v13))
    (fun t _ => written_block V c t) covered

end Cert.KernelIdeal.Region0

end
-- ==== Proof.Region1.lean ====
/-
  The second region's output array. The grid has 25 points; point t stages rows 2000·t … 2000·t + 1999 of the node array and of the mean-message array and the whole of each weight and bias array, and writes back rows 2000·t … 2000·t + 1999 of the output. What the body leaves in the output block is, entry by entry, the perceptron row of the specification at the block's rows; the 25 blocks tile the array, so the array after the region is the node-output function of the arrays the region was entered with.
-/
import proofs.«419081_j91122026152383_1_alg».proof.Proof.Gen.KernelIdeal.Frame
import proofs.«419081_j91122026152383_1_alg».proof.Proof.Spec
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem Cert.KernelIdeal Cert.KernelIdeal.Gen
open Idealize.ShloMosaic.Pipeline (Dat Cfg Window)
open scoped BigOperators

variable (V : (c : Dev nD) → (b : Ref sig .tc) → Buf (Elt Ideal) ((c : Thread nD τ).loc b))

/-! The two contractions' operand indices, axis by axis. -/

private theorem lhsA_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
private theorem lhsA_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
private theorem rhsA_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
private theorem rhsA_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

private theorem lhsB_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
private theorem lhsB_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
private theorem rhsB_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
private theorem rhsB_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A [2000,128] block times a [128,256] matrix into the zero splat, at row p and column q: the sum over the 128 shared positions. -/
private theorem matmulA_apply (x : FVec Ideal S2000x128 .bf16) (w : FVec Ideal S128x256 .bf16) (p : Fin 2000) (q : Fin 256) :
    matmul dot_S2000x128_S128x256_S2000x256_1_0_0_1_n_n none x w (constant (F := Ideal) S2000x256 .f32 0x00000000#32) (ix2 p q)
      = ∑ a : Fin 128, x (ix2 p a) * w (ix2 a q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhsA_0 _ _
    | ⟨1, _⟩ => exact (lhsA_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-- A [2000,256] block times a [256,256] matrix into the zero splat, at row p and column q: the sum over the 256 shared positions. -/
private theorem matmulB_apply (x : FVec Ideal S2000x256 .bf16) (w : FVec Ideal S256x256 .bf16) (p : Fin 2000) (q : Fin 256) :
    matmul dot_S2000x256_S256x256_S2000x256_1_0_0_1_n_n none x w (constant (F := Ideal) S2000x256 .f32 0x00000000#32) (ix2 p q)
      = ∑ b : Fin 256, x (ix2 p b) * w (ix2 b q) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhsB_0 _ _
    | ⟨1, _⟩ => exact (lhsB_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhsB_0 _ _).trans hk
    | ⟨1, _⟩ => exact rhsB_1 _ _)
  rw [el, er]

/-- The activation as the body spells it, at one entry: the value itself where it is above zero, else its exponential less one. -/
private theorem act_apply (v : FVec Ideal S2000x256 .f32) (i : S2000x256.Idx) :
    select (cmpf .ogt v (broadcast S2000x256 (Scalar.ofBits .f32 0x00000000#32))) v
        (subf (exp v) (broadcast S2000x256 (Scalar.ofBits .f32 0x3F800000#32))) i = Cert.Spec.elu (v i) := by
  show Scalar.select (Ideal.cmp .ogt (v i) (Ideal.ofBits .f32 0x00000000#32)) (v i) (Ideal.exp (v i) - Ideal.ofBits .f32 0x3F800000#32) = _
  rw [Ideal.ofBits_zero_f32, Ideal.ofBits_one_f32]
  unfold Cert.Spec.elu Ideal.cmp Scalar.select
  by_cases h : 0 < v i
  · simp [h]
  · simp [h]

/-- A one-row bias spread over the 2000 rows of a block reads, at row p and column q, its entry q. -/
private theorem bias_apply (b : FVec Ideal S1x256 .f32) (p : Fin 2000) (q : Fin 256) :
    broadcastTo S2000x256 (shapeCast S1x256 b shapeCasts_S1x256_S1x256) broadcasts_S1x256_S2000x256 (ix2 p q) = b (ix2 (0 : Fin 1) q) := by
  rw [shapeCast_self]
  refine broadcastTo_apply _ _ _ _ fun a => ?_
  match a with
  | ⟨0, _⟩ => rfl
  | ⟨1, _⟩ => rfl

/-- THE BODY'S RESULT AT ROW p, COLUMN q of a block: the perceptron row of the specification, of row p of the two
    operand blocks, the two first-layer weight matrices, the first bias, the second-layer weights and the second bias. -/
private theorem payload_apply (x0 : Vec Ideal S2000x128 .f32) (x1 : Vec Ideal S2000x256 .f32) (wx : Vec Ideal S128x256 .bf16)
    (wm : Vec Ideal S256x256 .bf16) (b1 : Vec Ideal S1x256 .f32) (w2 : Vec Ideal S256x256 .bf16) (b2 : Vec Ideal S1x256 .f32)
    (p : Fin 2000) (q : Fin 256) :
    Gen.k1_pay1 (F := Ideal) x0 x1 wx wm b1 w2 b2 (ix2 p q)
      = Cert.Spec.mlpRow (fun a : Fin 128 => x0 (ix2 p a)) (fun b : Fin 256 => x1 (ix2 p b)) (fun a k => wx (ix2 a k))
          (fun b k => wm (ix2 b k)) (fun k : Fin 256 => b1 (ix2 (0 : Fin 1) k)) (fun k j => w2 (ix2 k j))
          (fun j : Fin 256 => b2 (ix2 (0 : Fin 1) j)) q := by
  unfold Gen.k1_pay1 Cert.Spec.mlpRow
  refine (addf_apply _ _ _).trans ?_
  refine congrArg₂ (· + ·) ?_ (bias_apply b2 p q)
  refine (matmulB_apply _ _ p q).trans ?_
  refine Finset.sum_congr rfl fun k _ => ?_
  refine congrArg₂ (· * ·) ?_ (congrFun (shapeCast_self w2 _) _)
  refine (truncf_apply (φ := .f32) (ψ := .bf16) _ bitsLt_bf16_f32 (ix2 p k)).trans ?_
  refine (act_apply _ _).trans ?_
  refine congrArg Cert.Spec.elu ?_
  refine (addf_apply _ _ _).trans ?_
  refine congrArg₂ (· + ·) ?_ (bias_apply b1 p k)
  refine (addf_apply _ _ _).trans ?_
  refine congrArg₂ (· + ·) ?_ ?_
  · refine (matmulA_apply _ _ p k).trans ?_
    refine Finset.sum_congr rfl fun a _ => ?_
    exact congrArg₂ (· * ·) rfl (congrFun (shapeCast_self wx _) _)
  · refine (matmulB_apply _ _ p k).trans ?_
    refine Finset.sum_congr rfl fun b _ => ?_
    exact congrArg₂ (· * ·) (congrFun (shapeCast_self x1 _) _) (congrFun (shapeCast_self wm _) _)

/-! From blocks to the array. -/

private theorem hz : (![0, 0] : Fin 2 → Nat) = fun _ => 0 := funext fun a => by
  match a with
  | ⟨0, _⟩ => rfl
  | ⟨1, _⟩ => rfl

/-- The index maps over the 25 points: the node rows, the mean rows and the output rows move together (block t of each
    at point t, the one column block), and every weight and bias window stays on its one block. -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row p of the node block at point t is row 2000·t + p of the node array. -/
private theorem nodeBlk_apply (c : Dev nD) (t : Fin cfg1.N) (p : Fin 2000) (a : Fin 128) (r : Fin 50000)
    (hr : r.val = t.val * 2000 + p.val) :
    (iblk1 V c 0 t : Vec Ideal S2000x128 .f32) (ix2 p a) = (V c main_arg0 : S50000x128.Idx → EReal) (ix2 r a) := by
  obtain ⟨e00, e01, -⟩ := idx_facts t
  unfold iblk1
  rw [View.read_apply]
  show V c main_arg0 _ = V c main_arg0 _
  congr 1
  funext x
  apply Fin.ext
  match x with
  | ⟨0, _⟩ => show win1_0.index t (0 : Fin 2) * 2000 + 1 * p.val = r.val; omega
  | ⟨1, _⟩ => show win1_0.index t (1 : Fin 2) * 128 + 1 * a.val = a.val; omega

/-- Row p of the mean-message block at point t is row 2000·t + p of the mean-message array. -/
private theorem meanBlk_apply (c : Dev nD) (t : Fin cfg1.N) (p : Fin 2000) (b : Fin 256) (r : Fin 50000)
    (hr : r.val = t.val * 2000 + p.val) :
    (iblk1 V c 1 t : Vec Ideal S2000x256 .f32) (ix2 p b) = (V c main_v26 : S50000x256.Idx → EReal) (ix2 r b) := by
  obtain ⟨-, -, e10, e11, -⟩ := idx_facts t
  unfold iblk1
  rw [View.read_apply]
  show V c main_v26 _ = V c main_v26 _
  congr 1
  funext x
  apply Fin.ext
  match x with
  | ⟨0, _⟩ => show win1_1.index t (0 : Fin 2) * 2000 + 1 * p.val = r.val; omega
  | ⟨1, _⟩ => show win1_1.index t (1 : Fin 2) * 256 + 1 * b.val = b.val; omega

/-- The node half of the first-layer weights is staged whole at every point. -/
private theorem wxBlk_apply (c : Dev nD) (t : Fin cfg1.N) (a : Fin 128) (k : Fin 256) :
    (iblk1 V c 2 t : Vec Ideal S128x256 .bf16) (ix2 a k) = (V c main_v28 : S128x256.Idx → EReal) (ix2 a k) := by
  obtain ⟨-, -, -, -, e20, e21, -⟩ := idx_facts t
  unfold iblk1
  rw [View.read_apply]
  show V c main_v28 _ = V c main_v28 _
  congr 1
  funext x
  apply Fin.ext
  match x with
  | ⟨0, _⟩ => show win1_2.index t (0 : Fin 2) * 128 + 1 * a.val = a.val; omega
  | ⟨1, _⟩ => show win1_2.index t (1 : Fin 2) * 256 + 1 * k.val = k.val; omega

/-- So is the message half of the first-layer weights. -/
private theorem wmBlk_apply (c : Dev nD) (t : Fin cfg1.N) (b : Fin 256) (k : Fin 256) :
    (iblk1 V c 3 t : Vec Ideal S256x256 .bf16) (ix2 b k) = (V c main_v30 : S256x256.Idx → EReal) (ix2 b k) := by
  obtain ⟨-, -, -, -, -, -, e30, e31, -⟩ := idx_facts t
  unfold iblk1
  rw [View.read_apply]
  show V c main_v30 _ = V c main_v30 _
  congr 1
  funext x
  apply Fin.ext
  match x with
  | ⟨0, _⟩ => show win1_3.index t (0 : Fin 2) * 256 + 1 * b.val = b.val; omega
  | ⟨1, _⟩ => show win1_3.index t (1 : Fin 2) * 256 + 1 * k.val = k.val; omega

/-- So are the second-layer weights. -/
private theorem w2Blk_apply (c : Dev nD) (t : Fin cfg1.N) (k : Fin 256) (j : Fin 256) :
    (iblk1 V c 4 t : Vec Ideal S256x256 .bf16) (ix2 k j) = (V c main_v31 : S256x256.Idx → EReal) (ix2 k j) := by
  obtain ⟨-, -, -, -, -, -, -, -, e40, e41, -⟩ := idx_facts t
  unfold iblk1
  rw [View.read_apply]
  show V c main_v31 _ = V c main_v31 _
  congr 1
  funext x
  apply Fin.ext
  match x with
  | ⟨0, _⟩ => show win1_4.index t (0 : Fin 2) * 256 + 1 * k.val = k.val; omega
  | ⟨1, _⟩ => show win1_4.index t (1 : Fin 2) * 256 + 1 * j.val = j.val; omega

/-- So is the first bias row. -/
private theorem b1Blk_apply (c : Dev nD) (t : Fin cfg1.N) (k : Fin 256) :
    (iblk1 V c 5 t : Vec Ideal S1x256 .f32) (ix2 (0 : Fin 1) k) = (V c main_v32 : S1x256.Idx → EReal) (ix2 (0 : Fin 1) k) := by
  obtain ⟨-, -, -, -, -, -, -, -, -, -, e50, e51, -⟩ := idx_facts t
  unfold iblk1
  rw [View.read_apply]
  show V c main_v32 _ = V c main_v32 _
  congr 1
  funext x
  apply Fin.ext
  match x with
  | ⟨0, _⟩ => show win1_5.index t (0 : Fin 2) * 1 + 1 * (0 : Fin 1).val = (0 : Fin 1).val; omega
  | ⟨1, _⟩ => show win1_5.index t (1 : Fin 2) * 256 + 1 * k.val = k.val; omega

/-- So is the second bias row. -/
private theorem b2Blk_apply (c : Dev nD) (t : Fin cfg1.N) (j : Fin 256) :
    (iblk1 V c 6 t : Vec Ideal S1x256 .f32) (ix2 (0 : Fin 1) j) = (V c main_v33 : S1x256.Idx → EReal) (ix2 (0 : Fin 1) j) := by
  obtain ⟨-, -, -, -, -, -, -, -, -, -, -, -, e60, e61, -⟩ := idx_facts t
  unfold iblk1
  rw [View.read_apply]
  show V c main_v33 _ = V c main_v33 _
  congr 1
  funext x
  apply Fin.ext
  match x with
  | ⟨0, _⟩ => show win1_6.index t (0 : Fin 2) * 1 + 1 * (0 : Fin 1).val = (0 : Fin 1).val; omega
  | ⟨1, _⟩ => show win1_6.index t (1 : Fin 2) * 256 + 1 * j.val = j.val; omega

/-- A perceptron row depends on its seven operands entry by entry. -/
private theorem mlpRow_congr {A B H O : ℕ} {xa xa' : Fin A → EReal} {xb xb' : Fin B → EReal} {wa wa' : Fin A → Fin H → EReal}
    {wb wb' : Fin B → Fin H → EReal} {b1 b1' : Fin H → EReal} {w2 w2' : Fin H → Fin O → EReal} {b2 b2' : Fin O → EReal}
    (hxa : ∀ a, xa a = xa' a) (hxb : ∀ b, xb b = xb' b) (hwa : ∀ a k, wa a k = wa' a k) (hwb : ∀ b k, wb b k = wb' b k)
    (hb1 : ∀ k, b1 k = b1' k) (hw2 : ∀ k j, w2 k j = w2' k j) (hb2 : ∀ j, b2 j = b2' j) (j : Fin O) :
    Cert.Spec.mlpRow xa xb wa wb b1 w2 b2 j = Cert.Spec.mlpRow xa' xb' wa' wb' b1' w2' b2' j := by
  rw [show xa = xa' from funext hxa, show xb = xb' from funext hxb, show wa = wa' from funext fun a => funext (hwa a),
    show wb = wb' from funext fun b => funext (hwb b), show b1 = b1' from funext hb1,
    show w2 = w2' from funext fun k => funext (hw2 k), show b2 = b2' from funext hb2]

/-- WHAT POINT t WRITES BACK is block t of the node-output function of the arrays the region was entered with: entry
    (p, q) of the block is the body's result at row p, which is the perceptron row of rows 2000·t + p of the node and the
    mean-message arrays. -/
private theorem flushed_eq (c : Dev nD) (t : Fin cfg1.N) :
    (dat1 (F := Ideal) V c).flushed 7 t = ((cfg1.win 7).blk t).view.read (Elt Ideal)
      (Cert.Spec.nodeG (V c main_arg0) (V c main_v26) (V c main_v28) (V c main_v30) (V c main_v31) (V c main_v32) (V c main_v33)) := by
  show (cfg1.win 7).cut (grid1.coords t) ((dat1 V c).after 7 t) = _
  rw [after1_7]
  unfold out1_7
  rw [View.canon_unit_zero hz]
  simp only [View.ld_unit_zero (S := S2000x128) hz, View.ld_unit_zero (S := S2000x256) hz, View.ld_unit_zero (S := S128x256) hz,
    View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  have ht : t.val < 25 := t.isLt
  obtain ⟨-, -, -, -, -, -, -, -, -, -, -, -, -, -, e70, e71⟩ := idx_facts t
  obtain ⟨r, hr⟩ : ∃ r : Fin 50000, r.val = t.val * 2000 + p.val :=
    ⟨⟨t.val * 2000 + p.val, by have := p.isLt; omega⟩, rfl⟩
  have hemb : ((cfg1.win 7).blk t).view.emb (ix2 p q) = (ix2 r q : S50000x256.Idx) := by
    funext x
    apply Fin.ext
    match x with
    | ⟨0, _⟩ => show win1_7.index t (0 : Fin 2) * 2000 + 1 * p.val = r.val; omega
    | ⟨1, _⟩ => show win1_7.index t (1 : Fin 2) * 256 + 1 * q.val = q.val; omega
  refine ((payload_apply (iblk1 V c 0 t) (iblk1 V c 1 t) (iblk1 V c 2 t) (iblk1 V c 3 t) (iblk1 V c 5 t) (iblk1 V c 4 t)
    (iblk1 V c 6 t) p q).trans ?_).trans
    (congrArg (Cert.Spec.nodeG (V c main_arg0) (V c main_v26) (V c main_v28) (V c main_v30) (V c main_v31) (V c main_v32)
      (V c main_v33)) hemb.symm)
  refine Eq.trans ?_ (Cert.Spec.nodeG_apply (V c main_arg0) (V c main_v26) (V c main_v28) (V c main_v30) (V c main_v31)
    (V c main_v32) (V c main_v33) r q).symm
  exact mlpRow_congr (fun a => nodeBlk_apply V c t p a r hr) (fun b => meanBlk_apply V c t p b r hr)
    (fun a k => wxBlk_apply V c t a k) (fun b k => wmBlk_apply V c t b k) (fun k => b1Blk_apply V c t k)
    (fun k j => w2Blk_apply V c t k j) (fun j => b2Blk_apply V c t j) q

/-- An index of the output array is in point t's block exactly when each coordinate is in the block's range on its axis. -/
private theorem mem_blk (t : Fin cfg1.N) (i : S50000x256.Idx) :
    i ∈ ((cfg1.win 7).blk t).view.set ↔ ∀ a : Fin 2, win1_7.index t a * S2000x256.size a ≤ (i a).val
      ∧ (i a).val < win1_7.index t a * S2000x256.size a + S2000x256.size a := by
  show i ∈ ((View.whole main_v34).slice (win1_7.rect t)).set ↔ _
  rw [View.set_slice_whole, Rect.mem_set_unit]
  exact Iff.rfl

/-- The 25 blocks of 2000 rows tile the 50000 rows: row n lies in the block of point n / 2000, and every point writes back. -/
private theorem cover (i : S50000x256.Idx) :
    ∃ t : Fin cfg1.N, (cfg1.win 7).flush t = true ∧ i ∈ ((cfg1.win 7).blk t).view.set := by
  have hi0 : (i 0).val < 50000 := (i 0).isLt
  have hi1 : (i 1).val < 256 := (i 1).isLt
  obtain ⟨t, ht⟩ : ∃ t : Fin cfg1.N, t.val = (i 0).val / 2000 :=
    ⟨⟨(i 0).val / 2000, by show (i 0).val / 2000 < 25; omega⟩, rfl⟩
  obtain ⟨-, -, -, -, -, -, -, -, -, -, -, -, -, -, e70, e71⟩ := idx_facts t
  refine ⟨t, flush1_7 t, ?_⟩
  rw [mem_blk]
  intro a
  match a with
  | ⟨0, _⟩ =>
    show win1_7.index t (0 : Fin 2) * 2000 ≤ (i 0).val ∧ (i 0).val < win1_7.index t (0 : Fin 2) * 2000 + 2000
    omega
  | ⟨1, _⟩ =>
    show win1_7.index t (1 : Fin 2) * 256 ≤ (i 1).val ∧ (i 1).val < win1_7.index t (1 : Fin 2) * 256 + 256
    omega

theorem value (c : Dev nD) :
    (dat1 (F := Ideal) V c).arrAt 7 cfg1.N
      = Cert.Spec.nodeG (V c main_arg0) (V c main_v26) (V c main_v28) (V c main_v30) (V c main_v31) (V c main_v32) (V c main_v33) := by
  exact (dat1 (F := Ideal) V c).arrAt_eq_of_cover 7
    (Cert.Spec.nodeG (V c main_arg0) (V c main_v26) (V c main_v28) (V c main_v30) (V c main_v31) (V c main_v32) (V c main_v33))
    (fun t _ => flushed_eq V c t) cover

end Cert.KernelIdeal.Region1

end
-- ==== Proof.KernelChain.lean ====
/-
  The stretches of the kernel's host program as whole-array functions: the edge list's two rows, the source index
  with negatives counted from the end, the row gather and its filling variant, and the mean of the messages per
  destination node. Definitions only.
-/
import proofs.«419081_j91122026152383_1_alg».proof.KernelIdeal
import Idealize.ShloMosaic.PureOps.Ideal

noncomputable section

namespace Cert.KernelIdeal.Chain

open Idealize.ShloMosaic Cert.KernelIdeal Cert.KernelIdeal.Facts₀

variable [Cert.KernelIdeal.Facts]

/-- Row `k` of the 2 × 800000 edge list as a vector: row 0 holds each edge's source node, row 1 its destination. -/
def rowVec (ei : IVec S2x800000 32) : IVec S800000 32 :=
  shapeCast S800000 (extractStridedSlice S1x800000 ![0, 0] ei slices_S2x800000_S1x800000_0_0) shapeCasts_S1x800000_S800000
def colVec (ei : IVec S2x800000 32) : IVec S800000 32 :=
  shapeCast S800000 (extractStridedSlice S1x800000 ![1, 0] ei slices_S2x800000_S1x800000_1_0) shapeCasts_S1x800000_S800000

/-- A source index with a negative value counted from the end: `r + 50000` where `r < 0`, else `r`. -/
def wrapped (r : IVec S800000 32) : IVec S800000 32 :=
  select (cmpi .slt r (broadcastInDim S800000 ![] bcast_S_S800000 (constantI S_ 32 0#32)))
    (addi r (broadcastInDim S800000 ![] bcast_S_S800000 (constantI S_ 32 50000#32))) r

/-- The gather's start indices (one column) and the scatter's (one column). -/
def rowIdx (ei : IVec S2x800000 32) : IVec S800000x1 32 :=
  broadcastInDim S800000x1 ![0] bcast_S800000_S800000x1_0 (wrapped (rowVec ei))
def colIdx (ei : IVec S2x800000 32) : IVec S800000x1 32 :=
  broadcastInDim S800000x1 ![0] bcast_S800000_S800000x1_0 (colVec ei)

/-- `x[idx]`: row `e` of the result is row `idx e` of `x` (the start index clamped into the array). -/
def gatherRows (x : FVec Ideal S50000x128 .f32) (idx : IVec S800000x1 32) : FVec Ideal S800000x128 .f32 :=
  Host.gather gather_S50000x128_S800000x1_S800000x128_1_0_n_n_0_1_1128 x idx

/-- The mean message per node: the sum of the rows of `h` whose destination is the node, over the larger of their
    count and one. -/
def meanOf (h : FVec Ideal S800000x256 .f32) (ci : IVec S800000x1 32) : FVec Ideal S50000x256 .f32 :=
  Host.divf
    (Host.scatterAdd scatter_S50000x256_S800000x1_S800000x256_1_0_0_1
      (broadcastInDim S50000x256 ![] bcast_S_S50000x256 (constant S_ .f32 0x00000000#32)) ci h)
    (broadcastInDim S50000x256 ![0, 1] bcast_S50000x1_S50000x256_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32)) ci
            (broadcastInDim S800000 ![] bcast_S_S800000 (constant S_ .f32 0x3F800000#32)))
          (broadcastInDim S50000 ![] bcast_S_S50000 (constant S_ .f32 0x3F800000#32)))))

/-- Which start indices lie inside the array's 50000 rows: `0 ≤ idx ≤ 49999`, one bit per edge. -/
def inRange (idx : IVec S800000x1 32) : IVec S800000 1 :=
  Host.reduce IntOp.andi
    (andi (cmpi .sge idx (broadcastInDim S800000x1 ![] bcast_S_S800000x1 (constantI S_ 32 0#32)))
      (cmpi .sle idx (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- `take` in its filling mode: the gathered row where the start index is inside the array, the not-a-number pattern
    (which the extended reals read as `⊥`) elsewhere. -/
def takeRows (x : FVec Ideal S50000x128 .f32) (ei : IVec S2x800000 32) : FVec Ideal S800000x128 .f32 :=
  select (broadcastInDim S800000x128 ![0] bcast_S800000_S800000x128_0 (inRange (rowIdx ei)))
    (gatherRows x (rowIdx ei))
    (broadcastInDim S800000x128 ![] bcast_S_S800000x128 (constant S_ .f32 0x7FC00000#32))

end Cert.KernelIdeal.Chain

end
-- ==== Proof.Entry0.lean ====
/-
  The arrays the first region is entered with, as functions of the launch memory: the host operations before it slice the edge list, take the source rows of the node array (filling mode), and re-lay the weights and biases; a change of float format is the identity on the extended reals, a slice of rows is a block of rows, and a reshape of a 256-vector to one row is that row.
-/
import proofs.«419081_j91122026152383_1_alg».proof.Proof.Gen.KernelIdeal.Frame
import proofs.«419081_j91122026152383_1_alg».proof.Proof.Spec
import proofs.«419081_j91122026152383_1_alg».proof.Proof.KernelChain
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Entry0

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- The filling take as a function of the node array and of the vector of source indices: the gathered row where the
    index (a negative one counted from the end) lies inside the array, the not-a-number pattern elsewhere. -/
private def takeOf (x : FVec Ideal S50000x128 .f32) (r : IVec S800000 32) : FVec Ideal S800000x128 .f32 :=
  select (broadcastInDim S800000x128 ![0] bcast_S800000_S800000x128_0
      (Chain.inRange (broadcastInDim S800000x1 ![0] bcast_S800000_S800000x1_0 (Chain.wrapped r))))
    (Chain.gatherRows x (broadcastInDim S800000x1 ![0] bcast_S800000_S800000x1_0 (Chain.wrapped r)))
    (broadcastInDim S800000x128 ![] bcast_S_S800000x128 (constant S_ .f32 0x7FC00000#32))

/-- At the edge list's first row it is the take of the chain. -/
private theorem takeOf_rowVec (x : FVec Ideal S50000x128 .f32) (ei : IVec S2x800000 32) :
    takeOf x (Chain.rowVec ei) = Chain.takeRows x ei := rfl

/-- Contents carried to a typed reference's buffer and back are the contents. -/
private theorem ofBuf_toBuf {T : BufTy} (x : StableHlo.TRef sig T) (v : T.Contents (Elt Ideal)) :
    x.ofBuf (x.toBuf v) = v := by
  obtain ⟨r, h, _, _⟩ := x
  subst h
  rfl

attribute [local irreducible] Host.reduce Host.gather in
/-- The take stretch over any contents: its operations, in order, are those of the filling take of the node array's
    buffer at the source-index vector's buffer (each read at its typed reference). -/
private theorem after1_v4 (V : Valuation τ sig (Elt Ideal)) :
    StableHlo.after hostOps0_1 V (Proc.devRef .tc main_v4)
      = (StableHlo.TRef.of main_v4 : StableHlo.TRef sig ⟨S800000x128, .f32⟩).toBuf
          (takeOf ((StableHlo.TRef.of main_arg0 : StableHlo.TRef sig ⟨S50000x128, .f32⟩).ofBuf (V (Proc.devRef .tc main_arg0)))
            ((StableHlo.TRef.of main_v1 : StableHlo.TRef sig ⟨S800000, .i32⟩).ofBuf (V (Proc.devRef .tc main_v1)))) := by
  after_results_simp
  simp only [ofBuf_toBuf]
  rfl

/-- The last stretch at the gathered rows' buffer: only the change of float format writes it, and on the extended
    reals that is the identity. -/
private theorem after2_v5 (V : Valuation τ sig (Elt Ideal)) :
    StableHlo.after hostOps0_2 V (Proc.devRef .tc main_v5) = (V (Proc.devRef .tc main_v4) : FVec Ideal S800000x128 .f32) := by
  after_results <;> rfl

attribute [local irreducible] takeOf in
/-- Reading a literal reference's buffer at its own type changes nothing. -/
private theorem strip (a : FVec Ideal S50000x128 .f32) (b : IVec S800000 32) :
    (StableHlo.TRef.of main_v4 : StableHlo.TRef sig ⟨S800000x128, .f32⟩).toBuf (Val := Elt Ideal)
        (takeOf ((StableHlo.TRef.of main_arg0 : StableHlo.TRef sig ⟨S50000x128, .f32⟩).ofBuf (Val := Elt Ideal) a)
          ((StableHlo.TRef.of main_v1 : StableHlo.TRef sig ⟨S800000, .i32⟩).ofBuf (Val := Elt Ideal) b))
      = takeOf a b := rfl

attribute [local irreducible] shapeCast extractStridedSlice in
/-- The first stretch at the source-index vector's buffer: the edge list's first row, reshaped to a vector. -/
private theorem after0_v1 (V : Valuation τ sig (Elt Ideal)) :
    StableHlo.after hostOps0 V (Proc.devRef .tc main_v1) = Chain.rowVec (V (Proc.devRef .tc main_arg1)) := by
  after_results <;> rfl

/-- The first stretch does not write the node array. -/
private theorem after0_arg0 (V : Valuation τ sig (Elt Ideal)) :
    StableHlo.after hostOps0 V (Proc.devRef .tc main_arg0) = V (Proc.devRef .tc main_arg0) := by
  after_results <;> rfl

attribute [local irreducible] takeOf Chain.takeRows Chain.rowVec Host.reduce Host.gather shapeCast extractStridedSlice in
theorem v5 (c : Dev nD) : V3 (F := Ideal) m ρ c main_v5 = Chain.takeRows (m ((c.tc : Thread nD τ).loc main_arg0)) (m ((c.tc : Thread nD τ).loc main_arg1)) := by
  have e2 := after2_v5 (W2 (F := Ideal) m ρ c)
  have e1 := after1_v4 (W1 (F := Ideal) m ρ c)
  have e0a := after0_arg0 (W0 (F := Ideal) m ρ c)
  have e0b := after0_v1 (W0 (F := Ideal) m ρ c)
  exact e2.trans (e1.trans ((strip _ _).trans ((congrArg₂ takeOf e0a e0b).trans (takeOf_rowVec _ _))))

theorem v6 (c : Dev nD) : V3 (F := Ideal) m ρ c main_v6 = (m ((c.tc : Thread nD τ).loc main_arg2)) := by
  show StableHlo.after hostOps0_2 (W2 (F := Ideal) m ρ c) (Proc.devRef .tc main_v6) = _
  after_results
  rfl
theorem v8 (c : Dev nD) : V3 (F := Ideal) m ρ c main_v8 = Cert.Spec.rows 0 128 256 (by norm_num) (m ((c.tc : Thread nD τ).loc main_arg5)) := by
  show StableHlo.after hostOps0_2 (W2 (F := Ideal) m ρ c) (Proc.devRef .tc main_v8) = _
  after_results
  funext i
  obtain ⟨a, k, rfl⟩ : ∃ (a : Fin 128) (k : Fin 256), i = ix2 a k := ⟨i 0, i 1, eq_ix2 i⟩
  rw [Cert.Spec.rows_apply]
  exact slice2_axis0_apply 0 (W0 (F := Ideal) m ρ c (Proc.devRef .tc main_arg5)) slices_S256x256_S128x256_0_0 a k _ rfl
theorem v10 (c : Dev nD) : V3 (F := Ideal) m ρ c main_v10 = Cert.Spec.rows 128 128 256 (by norm_num) (m ((c.tc : Thread nD τ).loc main_arg5)) := by
  show StableHlo.after hostOps0_2 (W2 (F := Ideal) m ρ c) (Proc.devRef .tc main_v10) = _
  after_results
  funext i
  obtain ⟨a, k, rfl⟩ : ∃ (a : Fin 128) (k : Fin 256), i = ix2 a k := ⟨i 0, i 1, eq_ix2 i⟩
  rw [Cert.Spec.rows_apply]
  exact slice2_axis0_apply 128 (W0 (F := Ideal) m ρ c (Proc.devRef .tc main_arg5)) slices_S256x256_S128x256_128_0 a k _ rfl
theorem v11 (c : Dev nD) : V3 (F := Ideal) m ρ c main_v11 = (m ((c.tc : Thread nD τ).loc main_arg7)) := by
  show StableHlo.after hostOps0_2 (W2 (F := Ideal) m ρ c) (Proc.devRef .tc main_v11) = _
  after_results
  rfl
theorem v12 (c : Dev nD) : V3 (F := Ideal) m ρ c main_v12 = Cert.Spec.asRow (m ((c.tc : Thread nD τ).loc main_arg6)) := by
  show StableHlo.after hostOps0_2 (W2 (F := Ideal) m ρ c) (Proc.devRef .tc main_v12) = _
  after_results
  funext i
  obtain ⟨z, k, rfl⟩ : ∃ (z : Fin 1) (k : Fin 256), i = ix2 z k := ⟨i 0, i 1, eq_ix2 i⟩
  rw [Cert.Spec.asRow_apply]
  exact shapeCast_a_1a_apply _ _ z k
theorem v13 (c : Dev nD) : V3 (F := Ideal) m ρ c main_v13 = Cert.Spec.asRow (m ((c.tc : Thread nD τ).loc main_arg8)) := by
  show StableHlo.after hostOps0_2 (W2 (F := Ideal) m ρ c) (Proc.devRef .tc main_v13) = _
  after_results
  funext i
  obtain ⟨z, k, rfl⟩ : ∃ (z : Fin 1) (k : Fin 256), i = ix2 z k := ⟨i 0, i 1, eq_ix2 i⟩
  rw [Cert.Spec.asRow_apply]
  exact shapeCast_a_1a_apply _ _ z k

end Cert.KernelIdeal.Entry0

end
-- ==== Proof.Entry1.lean ====
/-
  The arrays the second region is entered with, as functions of the launch memory and of the first region's output array: the host operations between the regions average the messages per destination node and re-lay the second perceptron's weights and biases; the first region writes only its own output array, so every other buffer is as the first region found it.
-/
import proofs.«419081_j91122026152383_1_alg».proof.Proof.Gen.KernelIdeal.Frame
import proofs.«419081_j91122026152383_1_alg».proof.Proof.Spec
import proofs.«419081_j91122026152383_1_alg».proof.Proof.KernelChain
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Entry1

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- A buffer that no operation of a literal stretch writes holds after the stretch what it held before. -/
local macro "skip_ops" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! An argument that no host operation before the first region writes and that is no array of the first region holds
    at the first region's exit what the launch memory holds. -/

private theorem W4_arg0 (c : Dev nD) : W4 (F := Ideal) m ρ c (Proc.devRef .tc main_arg0) = m ((c : Thread nD τ).loc main_arg0) :=
  calc W4 (F := Ideal) m ρ c (Proc.devRef .tc main_arg0)
    _ = W3 m ρ c (Proc.devRef .tc main_arg0) := W4_of_ne m ρ c main_arg0 (by decide)
    _ = W2 m ρ c (Proc.devRef .tc main_arg0) := by skip_ops hostOps0_2
    _ = W1 m ρ c (Proc.devRef .tc main_arg0) := by skip_ops hostOps0_1
    _ = W0 m ρ c (Proc.devRef .tc main_arg0) := by skip_ops hostOps0
    _ = m ((c : Thread nD τ).loc main_arg0) := rfl

private theorem W4_arg9 (c : Dev nD) : W4 (F := Ideal) m ρ c (Proc.devRef .tc main_arg9) = m ((c : Thread nD τ).loc main_arg9) :=
  calc W4 (F := Ideal) m ρ c (Proc.devRef .tc main_arg9)
    _ = W3 m ρ c (Proc.devRef .tc main_arg9) := W4_of_ne m ρ c main_arg9 (by decide)
    _ = W2 m ρ c (Proc.devRef .tc main_arg9) := by skip_ops hostOps0_2
    _ = W1 m ρ c (Proc.devRef .tc main_arg9) := by skip_ops hostOps0_1
    _ = W0 m ρ c (Proc.devRef .tc main_arg9) := by skip_ops hostOps0
    _ = m ((c : Thread nD τ).loc main_arg9) := rfl

private theorem W4_arg10 (c : Dev nD) : W4 (F := Ideal) m ρ c (Proc.devRef .tc main_arg10) = m ((c : Thread nD τ).loc main_arg10) :=
  calc W4 (F := Ideal) m ρ c (Proc.devRef .tc main_arg10)
    _ = W3 m ρ c (Proc.devRef .tc main_arg10) := W4_of_ne m ρ c main_arg10 (by decide)
    _ = W2 m ρ c (Proc.devRef .tc main_arg10) := by skip_ops hostOps0_2
    _ = W1 m ρ c (Proc.devRef .tc main_arg10) := by skip_ops hostOps0_1
    _ = W0 m ρ c (Proc.devRef .tc main_arg10) := by skip_ops hostOps0
    _ = m ((c : Thread nD τ).loc main_arg10) := rfl

private theorem W4_arg11 (c : Dev nD) : W4 (F := Ideal) m ρ c (Proc.devRef .tc main_arg11) = m ((c : Thread nD τ).loc main_arg11) :=
  calc W4 (F := Ideal) m ρ c (Proc.devRef .tc main_arg11)
    _ = W3 m ρ c (Proc.devRef .tc main_arg11) := W4_of_ne m ρ c main_arg11 (by decide)
    _ = W2 m ρ c (Proc.devRef .tc main_arg11) := by skip_ops hostOps0_2
    _ = W1 m ρ c (Proc.devRef .tc main_arg11) := by skip_ops hostOps0_1
    _ = W0 m ρ c (Proc.devRef .tc main_arg11) := by skip_ops hostOps0
    _ = m ((c : Thread nD τ).loc main_arg11) := rfl

private theorem W4_arg12 (c : Dev nD) : W4 (F := Ideal) m ρ c (Proc.devRef .tc main_arg12) = m ((c : Thread nD τ).loc main_arg12) :=
  calc W4 (F := Ideal) m ρ c (Proc.devRef .tc main_arg12)
    _ = W3 m ρ c (Proc.devRef .tc main_arg12) := W4_of_ne m ρ c main_arg12 (by decide)
    _ = W2 m ρ c (Proc.devRef .tc main_arg12) := by skip_ops hostOps0_2
    _ = W1 m ρ c (Proc.devRef .tc main_arg12) := by skip_ops hostOps0_1
    _ = W0 m ρ c (Proc.devRef .tc main_arg12) := by skip_ops hostOps0
    _ = m ((c : Thread nD τ).loc main_arg12) := rfl

/-- The edge list's second row, as a vector, is written before the first region and by nothing after. -/
private theorem W4_v3 (c : Dev nD) : @Eq (IVec S800000 32) (W4 (F := Ideal) m ρ c (Proc.devRef .tc main_v3))
    (Chain.colVec (m ((c : Thread nD τ).loc main_arg1))) := by
  have e3 : W4 (F := Ideal) m ρ c (Proc.devRef .tc main_v3) = W3 m ρ c (Proc.devRef .tc main_v3) :=
    W4_of_ne m ρ c main_v3 (by decide)
  have e2 : W3 (F := Ideal) m ρ c (Proc.devRef .tc main_v3) = W2 m ρ c (Proc.devRef .tc main_v3) := by skip_ops hostOps0_2
  have e1 : W2 (F := Ideal) m ρ c (Proc.devRef .tc main_v3) = W1 m ρ c (Proc.devRef .tc main_v3) := by skip_ops hostOps0_1
  have e0 : @Eq (IVec S800000 32) (W1 (F := Ideal) m ρ c (Proc.devRef .tc main_v3))
      (Chain.colVec (m ((c : Thread nD τ).loc main_arg1))) := by
    show StableHlo.after hostOps0 (W0 (F := Ideal) m ρ c) (Proc.devRef .tc main_v3) = _
    after_results <;> rfl
  exact (e3.trans (e2.trans e1)).trans e0

theorem arg0 (c : Dev nD) : V5 (F := Ideal) m ρ c main_arg0 = (m ((c.tc : Thread nD τ).loc main_arg0)) :=
  calc V5 (F := Ideal) m ρ c main_arg0
    _ = W4 m ρ c (Proc.devRef .tc main_arg0) := by skip_ops hostOps1
    _ = _ := W4_arg0 m ρ c

theorem v26 (c : Dev nD) : V5 (F := Ideal) m ρ c main_v26
    = Chain.meanOf (V4 (F := Ideal) m ρ c main_v14) (Chain.colIdx (m ((c.tc : Thread nD τ).loc main_arg1))) := by
  have e : @Eq (FVec Ideal S50000x256 .f32) (V5 (F := Ideal) m ρ c main_v26)
      (Chain.meanOf (V4 (F := Ideal) m ρ c main_v14)
        (broadcastInDim S800000x1 ![0] bcast_S800000_S800000x1_0
          (W4 (F := Ideal) m ρ c (Proc.devRef .tc main_v3) : IVec S800000 32))) := by
    show StableHlo.after hostOps1 (W4 (F := Ideal) m ρ c) (Proc.devRef .tc main_v26) = _
    after_results <;> rfl
  refine e.trans ?_
  rw [W4_v3]
  rfl

theorem v28 (c : Dev nD) : V5 (F := Ideal) m ρ c main_v28 = Cert.Spec.rows 0 128 384 (by norm_num) (m ((c.tc : Thread nD τ).loc main_arg9)) := by
  have e : @Eq (FVec Ideal S128x256 .bf16) (V5 (F := Ideal) m ρ c main_v28)
      (truncf .bf16 (extractStridedSlice S128x256 ![0, 0]
        (W4 (F := Ideal) m ρ c (Proc.devRef .tc main_arg9) : FVec Ideal S384x256 .f32) slices_S384x256_S128x256_0_0) bitsLt_bf16_f32) := by
    show StableHlo.after hostOps1 (W4 (F := Ideal) m ρ c) (Proc.devRef .tc main_v28) = _
    after_results <;> rfl
  refine e.trans ?_
  rw [W4_arg9]
  funext i
  obtain ⟨a, k, rfl⟩ : ∃ a k, i = ix2 a k := ⟨i 0, i 1, eq_ix2 i⟩
  rw [Cert.Spec.rows_apply]
  exact slice2_axis0_apply 0 (m ((c.tc : Thread nD τ).loc main_arg9) : FVec Ideal S384x256 .f32)
    slices_S384x256_S128x256_0_0 a k _ rfl

theorem v30 (c : Dev nD) : V5 (F := Ideal) m ρ c main_v30 = Cert.Spec.rows 128 256 384 (by norm_num) (m ((c.tc : Thread nD τ).loc main_arg9)) := by
  have e : @Eq (FVec Ideal S256x256 .bf16) (V5 (F := Ideal) m ρ c main_v30)
      (truncf .bf16 (extractStridedSlice S256x256 ![128, 0]
        (W4 (F := Ideal) m ρ c (Proc.devRef .tc main_arg9) : FVec Ideal S384x256 .f32) slices_S384x256_S256x256_128_0) bitsLt_bf16_f32) := by
    show StableHlo.after hostOps1 (W4 (F := Ideal) m ρ c) (Proc.devRef .tc main_v30) = _
    after_results <;> rfl
  refine e.trans ?_
  rw [W4_arg9]
  funext i
  obtain ⟨a, k, rfl⟩ : ∃ a k, i = ix2 a k := ⟨i 0, i 1, eq_ix2 i⟩
  rw [Cert.Spec.rows_apply]
  exact slice2_axis0_apply 128 (m ((c.tc : Thread nD τ).loc main_arg9) : FVec Ideal S384x256 .f32)
    slices_S384x256_S256x256_128_0 a k _ rfl

theorem v31 (c : Dev nD) : V5 (F := Ideal) m ρ c main_v31 = (m ((c.tc : Thread nD τ).loc main_arg11)) := by
  have e : @Eq (FVec Ideal S256x256 .bf16) (V5 (F := Ideal) m ρ c main_v31)
      (truncf .bf16 (W4 (F := Ideal) m ρ c (Proc.devRef .tc main_arg11) : FVec Ideal S256x256 .f32) bitsLt_bf16_f32) := by
    show StableHlo.after hostOps1 (W4 (F := Ideal) m ρ c) (Proc.devRef .tc main_v31) = _
    after_results <;> rfl
  refine e.trans ?_
  rw [W4_arg11]
  funext i; rfl

theorem v32 (c : Dev nD) : V5 (F := Ideal) m ρ c main_v32 = Cert.Spec.asRow (m ((c.tc : Thread nD τ).loc main_arg10)) := by
  have e : @Eq (FVec Ideal S1x256 .f32) (V5 (F := Ideal) m ρ c main_v32)
      (shapeCast S1x256 (W4 (F := Ideal) m ρ c (Proc.devRef .tc main_arg10) : FVec Ideal S256 .f32) shapeCasts_S256_S1x256) := by
    show StableHlo.after hostOps1 (W4 (F := Ideal) m ρ c) (Proc.devRef .tc main_v32) = _
    after_results <;> rfl
  refine e.trans ?_
  rw [W4_arg10]
  funext i
  obtain ⟨a, k, rfl⟩ : ∃ a k, i = ix2 a k := ⟨i 0, i 1, eq_ix2 i⟩
  rw [Cert.Spec.asRow_apply]
  exact shapeCast_a_1a_apply _ _ a k

theorem v33 (c : Dev nD) : V5 (F := Ideal) m ρ c main_v33 = Cert.Spec.asRow (m ((c.tc : Thread nD τ).loc main_arg12)) := by
  have e : @Eq (FVec Ideal S1x256 .f32) (V5 (F := Ideal) m ρ c main_v33)
      (shapeCast S1x256 (W4 (F := Ideal) m ρ c (Proc.devRef .tc main_arg12) : FVec Ideal S256 .f32) shapeCasts_S256_S1x256) := by
    show StableHlo.after hostOps1 (W4 (F := Ideal) m ρ c) (Proc.devRef .tc main_v33) = _
    after_results <;> rfl
  refine e.trans ?_
  rw [W4_arg12]
  funext i
  obtain ⟨a, k, rfl⟩ : ∃ a k, i = ix2 a k := ⟨i 0, i 1, eq_ix2 i⟩
  rw [Cert.Spec.asRow_apply]
  exact shapeCast_a_1a_apply _ _ a k

end Cert.KernelIdeal.Entry1

end
-- ==== Proof.TakeGather.lean ====
/-
  Under the precondition every source index r of the edge list satisfies -50000 ≤ r < 50000, so the index counted from
  the end where negative, r + 50000 for r < 0 and r otherwise, lies in 0 … 49999: every edge's in-range bit is set and
  the filling take is the plain gather.
-/
import proofs.«419081_j91122026152383_1_alg».proof.Defs
import proofs.«419081_j91122026152383_1_alg».proof.Proof.Gen.Pre_finite_inputs
import proofs.«419081_j91122026152383_1_alg».proof.Proof.Gen.KernelIdeal
import proofs.«419081_j91122026152383_1_alg».proof.Proof.KernelChain
import Idealize.ShloMosaic.Lib.ValueIdx
import Idealize.ShloMosaic.Lib.ReduceAll
import Idealize.ShloMosaic.Lib.StableHlo.Predicate
import Idealize.ShloMosaic.Lib.Pipeline.Value

noncomputable section

namespace Cert.KernelIdeal.TakeGather

open Idealize.ShloMosaic Idealize.ShloMosaic.TcCoe Idealize.ShloMosaic.ValueIdx Idealize.SL.Sem Cert.KernelIdeal

/-- The scalar shape has one index. -/
private instance scalarIdxSubsingleton : Subsingleton Cert.Pre_finite_inputs.S_.Idx := ⟨fun a b => funext fun d => d.elim0⟩

/-- The precondition read at one edge: its source index r satisfies -50000 ≤ r and r < 50000 as signed words. The
    predicate is a chain of conjunctions whose last two are the two range checks; each is an "all" over the edges. -/
private theorem rows_of_pre (m : (ℓ : Loc nD τ sig) → Buf (Elt Ideal) ℓ) (h : Cert.Pre_KernelIdeal m) (c : Dev nD) (e : S800000.Idx) :
    IntOp.cmpi .sge (Chain.rowVec (m ((c.tc : Thread nD τ).loc main_arg1)) e) 4294917296#32 = 1#1
      ∧ IntOp.cmpi .slt (Chain.rowVec (m ((c.tc : Thread nD τ).loc main_arg1)) e) 50000#32 = 1#1 := by
  have h0 := congrFun (h c) ValueIdx.ix0
  dsimp only [Cert.Pre_finite_inputs.fn, Cert.Pre_finite_inputs.fn_part1, Cert.Pre_finite_inputs.fn_part2,
    Cert.Pre_finite_inputs.fn_part3] at h0
  change IntOp.andi _ _ = 1#1 at h0
  obtain ⟨h1, hlt⟩ := IntOp.andi_eq_one.1 h0
  change IntOp.andi _ _ = 1#1 at h1
  obtain ⟨-, hge⟩ := IntOp.andi_eq_one.1 h1
  exact ⟨Host.reduce_andi_all _ _ _ _ _ hge e, Host.reduce_andi_all _ _ _ _ _ hlt e⟩

/-- The bit of a decided proposition is one exactly when it holds. -/
private theorem ofBool_eq_one' (b : Bool) : (BitVec.ofBool b = (1 : BitVec 1)) ↔ b = true := by cases b <;> decide

/-- A word r with -50000 ≤ r < 50000 signed, counted from the end where negative (r + 50000 for r < 0, else r), is below
    50000 as a natural number: the sum does not wrap, since r + 50000 ≥ 0. -/
private theorem wrap_toNat_lt (w : BitVec 32)
    (h1 : IntOp.cmpi .sge w 4294917296#32 = 1#1) (h2 : IntOp.cmpi .slt w 50000#32 = 1#1) :
    (Scalar.select (IntOp.cmpi .slt w 0#32) (IntOp.addi w 50000#32) w).toNat < 50000 := by
  unfold IntOp.cmpi at h1 h2
  rw [StableHlo.Predicate.ofBool_eq_one_iff] at h1 h2
  simp only [BitVec.slt, BitVec.sle, decide_eq_true_eq] at h1 h2
  have hc : (4294917296#32 : BitVec 32).toInt = -50000 := by decide
  have hd : (50000#32 : BitVec 32).toInt = 50000 := by decide
  have hz : (0#32 : BitVec 32).toInt = 0 := by decide
  rw [hc] at h1; rw [hd] at h2
  have hw := w.isLt
  have hT := BitVec.toInt_eq_toNat_cond w
  unfold Scalar.select IntOp.cmpi IntOp.addi
  simp only [ofBool_eq_one', BitVec.slt, decide_eq_true_eq, hz]
  split
  · rename_i hneg
    rw [BitVec.toNat_add]
    simp only [BitVec.toNat_ofNat]
    split at hT <;> omega
  · rename_i hpos
    split at hT <;> omega

/-- So both range comparisons hold of it: 0 ≤ · and · ≤ 49999, signed. -/
private theorem wrap_inb (w : BitVec 32)
    (h1 : IntOp.cmpi .sge w 4294917296#32 = 1#1) (h2 : IntOp.cmpi .slt w 50000#32 = 1#1) :
    IntOp.andi
      (IntOp.cmpi .sge (Scalar.select (IntOp.cmpi .slt w 0#32) (IntOp.addi w 50000#32) w) 0#32)
      (IntOp.cmpi .sle (Scalar.select (IntOp.cmpi .slt w 0#32) (IntOp.addi w 50000#32) w) 49999#32) = 1#1 := by
  have hv := wrap_toNat_lt w h1 h2
  have h49 : (49999#32 : BitVec 32).toNat = 49999 := by decide
  have h00 : (0#32 : BitVec 32).toNat = 0 := by decide
  rw [IntOp.andi_eq_one]
  refine ⟨?_, ?_⟩
  · rw [StableHlo.Predicate.sge_iff_toNat (by omega) (by omega)]; omega
  · rw [StableHlo.Predicate.sle_iff_toNat (by omega) (by omega)]; omega

/-- A left fold by `and` over ones, from one, is one. -/
private theorem foldl_andi_ones {ι : Type} (l : List ι) : l.foldl (fun r (_ : ι) => IntOp.andi r 1#1) 1#1 = 1#1 := by
  induction l with
  | nil => rfl
  | cons a l ih => exact ih

/-- Every edge's start index lies inside the array: the in-range bit is one at every edge. -/
private theorem inRange_eq_one (r : IVec S800000 32)
    (hr : ∀ e, IntOp.cmpi .sge (r e) 4294917296#32 = 1#1 ∧ IntOp.cmpi .slt (r e) 50000#32 = 1#1) (j : S800000.Idx) :
    Chain.inRange (broadcastInDim S800000x1 ![0] Facts₀.bcast_S800000_S800000x1_0 (Chain.wrapped r)) j = 1#1 := by
  unfold Chain.inRange
  have hop : (andi (cmpi .sge (broadcastInDim S800000x1 ![0] Facts₀.bcast_S800000_S800000x1_0 (Chain.wrapped r))
        (broadcastInDim S800000x1 ![] Facts₀.bcast_S_S800000x1 (constantI S_ 32 0#32)))
      (cmpi .sle (broadcastInDim S800000x1 ![0] Facts₀.bcast_S800000_S800000x1_0 (Chain.wrapped r))
        (broadcastInDim S800000x1 ![0, 1] Facts₀.bcast_S1x1_S800000x1_0_1
          (broadcastInDim S1x1 ![1] Facts₀.bcast_S1_S1x1_1 (constantI S1 32 49999#32))))) = fun _ => 1#1 := by
    funext i
    exact wrap_inb _ (hr _).1 (hr _).2
  rw [hop, Host.reduce_eq_foldl]
  exact foldl_andi_ones _

theorem take_eq_gather_of_pre (m : (ℓ : Loc nD τ sig) → Buf (Elt Ideal) ℓ) (h : Cert.Pre_KernelIdeal m) (c : Dev nD) :
    Chain.takeRows (m ((c.tc : Thread nD τ).loc main_arg0)) (m ((c.tc : Thread nD τ).loc main_arg1))
      = Chain.gatherRows (m ((c.tc : Thread nD τ).loc main_arg0)) (Chain.rowIdx (m ((c.tc : Thread nD τ).loc main_arg1))) := by
  funext i
  unfold Chain.takeRows
  rw [select_apply]
  have hbit : broadcastInDim S800000x128 ![0] Facts₀.bcast_S800000_S800000x128_0
      (Chain.inRange (Chain.rowIdx (m ((c.tc : Thread nD τ).loc main_arg1)))) i = 1#1 :=
    inRange_eq_one _ (fun e => rows_of_pre m h c e) _
  rw [hbit, select_one]

end Cert.KernelIdeal.TakeGather

end
-- ==== Proof.RefChain.lean ====
/-
  The reference's host program as whole-array functions: the edge list's two rows, the source index with negatives
  counted from the end, the row gather, the two perceptrons over concatenated inputs with ELU as jax spells it, and
  the mean of the messages per destination node. Definitions only.
-/
import proofs.«419081_j91122026152383_1_alg».proof.ReferenceIdeal
import Idealize.ShloMosaic.PureOps.Ideal

noncomputable section

namespace Cert.ReferenceIdeal.Chain

open Idealize.ShloMosaic Cert.ReferenceIdeal Cert.ReferenceIdeal.Facts₀

variable [Cert.ReferenceIdeal.Facts]

/-- Row `k` of the 2 × 800000 edge list as a vector: row 0 holds each edge's source node, row 1 its destination. -/
def rowVec (ei : IVec S2x800000 32) : IVec S800000 32 :=
  shapeCast S800000 (extractStridedSlice S1x800000 ![0, 0] ei slices_S2x800000_S1x800000_0_0) shapeCasts_S1x800000_S800000
def colVec (ei : IVec S2x800000 32) : IVec S800000 32 :=
  shapeCast S800000 (extractStridedSlice S1x800000 ![1, 0] ei slices_S2x800000_S1x800000_1_0) shapeCasts_S1x800000_S800000

/-- A source index with a negative value counted from the end: `r + 50000` where `r < 0`, else `r`. -/
def wrapped (r : IVec S800000 32) : IVec S800000 32 :=
  select (cmpi .slt r (broadcastInDim S800000 ![] bcast_S_S800000 (constantI S_ 32 0#32)))
    (addi r (broadcastInDim S800000 ![] bcast_S_S800000 (constantI S_ 32 50000#32))) r

/-- The gather's start indices (one column) and the scatter's (one column). -/
def rowIdx (ei : IVec S2x800000 32) : IVec S800000x1 32 :=
  broadcastInDim S800000x1 ![0] bcast_S800000_S800000x1_0 (wrapped (rowVec ei))
def colIdx (ei : IVec S2x800000 32) : IVec S800000x1 32 :=
  broadcastInDim S800000x1 ![0] bcast_S800000_S800000x1_0 (colVec ei)

/-- `x[idx]`: row `e` of the result is row `idx e` of `x` (the start index clamped into the array). -/
def gatherRows (x : FVec Ideal S50000x128 .f32) (idx : IVec S800000x1 32) : FVec Ideal S800000x128 .f32 :=
  Host.gather gather_S50000x128_S800000x1_S800000x128_1_0_n_n_0_1_1128 x idx

/-- The mean message per node: the sum of the rows of `h` whose destination is the node, over the larger of their
    count and one. -/
def meanOf (h : FVec Ideal S800000x256 .f32) (ci : IVec S800000x1 32) : FVec Ideal S50000x256 .f32 :=
  Host.divf
    (Host.scatterAdd scatter_S50000x256_S800000x1_S800000x256_1_0_0_1
      (broadcastInDim S50000x256 ![] bcast_S_S50000x256 (constant S_ .f32 0x00000000#32)) ci h)
    (broadcastInDim S50000x256 ![0, 1] bcast_S50000x1_S50000x256_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32)) ci
            (broadcastInDim S800000 ![] bcast_S_S800000 (constant S_ .f32 0x3F800000#32)))
          (broadcastInDim S50000 ![] bcast_S_S50000 (constant S_ .f32 0x3F800000#32)))))

/-- ELU as jax spells it: `p` where `p > 0`, else `1 · expm1 (0 where p > 0 else p)`. -/
def eluE (p : FVec Ideal S800000x256 .f32) : FVec Ideal S800000x256 .f32 :=
  select (cmpf .ogt p (broadcastInDim S800000x256 ![] bcast_S_S800000x256 (constant S_ .f32 0x00000000#32))) p
    (mulf (broadcastInDim S800000x256 ![] bcast_S_S800000x256 (constant S_ .f32 0x3F800000#32))
      (Host.expm1 (select (cmpf .ogt p (broadcastInDim S800000x256 ![] bcast_S_S800000x256 (constant S_ .f32 0x00000000#32)))
        (broadcastInDim S800000x256 ![] bcast_S_S800000x256 (id (constant S_ .f32 0x00000000#32))) p)))
def eluN (p : FVec Ideal S50000x256 .f32) : FVec Ideal S50000x256 .f32 :=
  select (cmpf .ogt p (broadcastInDim S50000x256 ![] bcast_S_S50000x256 (constant S_ .f32 0x00000000#32))) p
    (mulf (broadcastInDim S50000x256 ![] bcast_S_S50000x256 (constant S_ .f32 0x3F800000#32))
      (Host.expm1 (select (cmpf .ogt p (broadcastInDim S50000x256 ![] bcast_S_S50000x256 (constant S_ .f32 0x00000000#32)))
        (broadcastInDim S50000x256 ![] bcast_S_S50000x256 (id (constant S_ .f32 0x00000000#32))) p)))

/-- The edge perceptron as the reference writes it: the gathered rows and the edge rows side by side, one matrix
    product per layer, a bias row added to every row. -/
def mlpE (xr ea : FVec Ideal S800000x128 .f32) (w1a : FVec Ideal S256x256 .f32) (b1a : FVec Ideal S256 .f32)
    (w1b : FVec Ideal S256x256 .f32) (b1b : FVec Ideal S256 .f32) : FVec Ideal S800000x256 .f32 :=
  addf (Host.dotGeneral dot_S800000x256_S256x256_S800000x256_1_0_0_1_n_n none
      (eluE (addf (Host.dotGeneral dot_S800000x256_S256x256_S800000x256_1_0_0_1_n_n none
          (concatenate S800000x256 1 [⟨S800000x128, xr⟩, ⟨S800000x128, ea⟩] concatenates_S800000x128_S800000x128_S800000x256_d1) w1a)
        (broadcastInDim S800000x256 ![0, 1] bcast_S1x256_S800000x256_0_1 (broadcastInDim S1x256 ![1] bcast_S256_S1x256_1 b1a)))) w1b)
    (broadcastInDim S800000x256 ![0, 1] bcast_S1x256_S800000x256_0_1 (broadcastInDim S1x256 ![1] bcast_S256_S1x256_1 b1b))

/-- The node perceptron as the reference writes it. -/
def mlpN (x : FVec Ideal S50000x128 .f32) (mn : FVec Ideal S50000x256 .f32) (w2a : FVec Ideal S384x256 .f32) (b2a : FVec Ideal S256 .f32)
    (w2b : FVec Ideal S256x256 .f32) (b2b : FVec Ideal S256 .f32) : FVec Ideal S50000x256 .f32 :=
  addf (Host.dotGeneral dot_S50000x256_S256x256_S50000x256_1_0_0_1_n_n none
      (eluN (addf (Host.dotGeneral dot_S50000x384_S384x256_S50000x256_1_0_0_1_n_n none
          (concatenate S50000x384 1 [⟨S50000x128, x⟩, ⟨S50000x256, mn⟩] concatenates_S50000x128_S50000x256_S50000x384_d1) w2a)
        (broadcastInDim S50000x256 ![0, 1] bcast_S1x256_S50000x256_0_1 (broadcastInDim S1x256 ![1] bcast_S256_S1x256_1 b2a)))) w2b)
    (broadcastInDim S50000x256 ![0, 1] bcast_S1x256_S50000x256_0_1 (broadcastInDim S1x256 ![1] bcast_S256_S1x256_1 b2b))

/-- The reference's result as one function of its argument arrays. -/
def out (x : FVec Ideal S50000x128 .f32) (ei : IVec S2x800000 32) (ea : FVec Ideal S800000x128 .f32)
    (w1a : FVec Ideal S256x256 .f32) (b1a : FVec Ideal S256 .f32) (w1b : FVec Ideal S256x256 .f32) (b1b : FVec Ideal S256 .f32)
    (w2a : FVec Ideal S384x256 .f32) (b2a : FVec Ideal S256 .f32) (w2b : FVec Ideal S256x256 .f32) (b2b : FVec Ideal S256 .f32) :
    FVec Ideal S50000x256 .f32 :=
  mlpN x (meanOf (mlpE (gatherRows x (rowIdx ei)) ea w1a b1a w1b b1b) (colIdx ei)) w2a b2a w2b b2b

end Cert.ReferenceIdeal.Chain

end
-- ==== Proof.RefRun.lean ====
/-
  The reference's host program run to its end: every execution terminates with the result array at `Chain.out` of the
  argument arrays, and the arguments unchanged.
-/
import proofs.«419081_j91122026152383_1_alg».proof.Proof.Gen.ReferenceIdeal
import proofs.«419081_j91122026152383_1_alg».proof.Proof.RefChain
import Idealize.ShloMosaic.Lib.StableHlo.Run

noncomputable section

namespace Cert.ReferenceIdeal.Hand

open Idealize.ShloMosaic Idealize.ShloMosaic.TcCoe Idealize.ShloMosaic.StableHlo Idealize.SL.Sem Cert.ReferenceIdeal

section Line

open Cert.ReferenceIdeal.Facts₀

variable {F : FTy → Type} [FloatOps F]

/-- The program's seventy-seven operations in the order it runs them, the two activation calls opened in place: each
    is the callee's thirteen lines over that call's own buffers, and inside it the two selections (the first converts
    its scalar, spreads it over the array and selects; the second is the selection alone). -/
abbrev ops : List (HloOp τ sig (Elt F)) :=
  [
    StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v10 main_arg2 main_v11 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    StableHlo.binary main_v11 main_arg5 main_v12 ((fun l r => Host.dotGeneral dot_S800000x256_S256x256_S800000x256_1_0_0_1_n_n none l r) : (⟨S800000x256, .f32⟩ : BufTy).Contents (Elt F) → (⟨S256x256, .f32⟩ : BufTy).Contents (Elt F) → (⟨S800000x256, .f32⟩ : BufTy).Contents (Elt F)),
    StableHlo.unary main_arg6 main_v13 (broadcastInDim S1x256 ![1] bcast_S256_S1x256_1 : (⟨S256, .f32⟩ : BufTy).Contents (Elt F) → (⟨S1x256, .f32⟩ : BufTy).Contents (Elt F)),
    StableHlo.unary main_v13 main_v14 (broadcastInDim S800000x256 ![0, 1] bcast_S1x256_S800000x256_0_1 : (⟨S1x256, .f32⟩ : BufTy).Contents (Elt F) → (⟨S800000x256, .f32⟩ : BufTy).Contents (Elt F)),
    StableHlo.binary main_v12 main_v14 main_v15 (addf : (⟨S800000x256, .f32⟩ : BufTy).Contents (Elt F) → (⟨S800000x256, .f32⟩ : BufTy).Contents (Elt F) → (⟨S800000x256, .f32⟩ : BufTy).Contents (Elt F)),
    TRef.nullary main_call0.cst (constant S_ .f32 0x00000000#32),
    TRef.unary main_call0.cst main_call0.v0 (broadcastInDim S800000x256 ![] bcast_S_S800000x256),
    TRef.binary (.of main_v15 : TRef sig ⟨S800000x256, .f32⟩) main_call0.v0 main_call0.v1 (cmpf .ogt),
    TRef.nullary main_call0.cst_0 (constant S_ .f32 0x00000000#32),
    TRef.unary main_call0.cst_0 main_call0.v2 (broadcastInDim S800000x256 ![] bcast_S_S800000x256),
    TRef.binary (.of main_v15 : TRef sig ⟨S800000x256, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S800000x256 ![] bcast_S_S800000x256),
    TRef.ternary main_call0.v3 main_call0.call0.v1 (.of main_v15 : TRef sig ⟨S800000x256, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S800000x256 ![] bcast_S_S800000x256),
    TRef.binary main_call0.v6 main_call0.v5 main_call0.v7 mulf,
    TRef.ternary main_call0.v1 (.of main_v15 : TRef sig ⟨S800000x256, .f32⟩) main_call0.v7 main_call0.call1.v0 select,
    StableHlo.binary main_v16 main_arg7 main_v17 ((fun l r => Host.dotGeneral dot_S800000x256_S256x256_S800000x256_1_0_0_1_n_n none l r) : (⟨S800000x256, .f32⟩ : BufTy).Contents (Elt F) → (⟨S256x256, .f32⟩ : BufTy).Contents (Elt F) → (⟨S800000x256, .f32⟩ : BufTy).Contents (Elt F)),
    StableHlo.unary main_arg8 main_v18 (broadcastInDim S1x256 ![1] bcast_S256_S1x256_1 : (⟨S256, .f32⟩ : BufTy).Contents (Elt F) → (⟨S1x256, .f32⟩ : BufTy).Contents (Elt F)),
    StableHlo.unary main_v18 main_v19 (broadcastInDim S800000x256 ![0, 1] bcast_S1x256_S800000x256_0_1 : (⟨S1x256, .f32⟩ : BufTy).Contents (Elt F) → (⟨S800000x256, .f32⟩ : BufTy).Contents (Elt F)),
    StableHlo.binary main_v17 main_v19 main_v20 (addf : (⟨S800000x256, .f32⟩ : BufTy).Contents (Elt F) → (⟨S800000x256, .f32⟩ : BufTy).Contents (Elt F) → (⟨S800000x256, .f32⟩ : BufTy).Contents (Elt F)),
    StableHlo.nullary main_cst (constant S_ .f32 0x00000000#32),
    StableHlo.unary main_cst main_v21 (broadcastInDim S50000x256 ![] bcast_S_S50000x256 : (⟨S_, .f32⟩ : BufTy).Contents (Elt F) → (⟨S50000x256, .f32⟩ : BufTy).Contents (Elt F)),
    StableHlo.unary main_v3 main_v22 (broadcastInDim S800000x1 ![0] bcast_S800000_S800000x1_0 : (⟨S800000, .i32⟩ : BufTy).Contents (Elt F) → (⟨S800000x1, .i32⟩ : BufTy).Contents (Elt F)),
    StableHlo.ternary main_v21 main_v22 main_v20 main_v23 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.nullary main_cst_1 (constant S_ .f32 0x3F800000#32),
    StableHlo.unary main_cst_1 main_v24 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v25 (broadcastInDim S50000 ![] bcast_S_S50000 : (⟨S_, .f32⟩ : BufTy).Contents (Elt F) → (⟨S50000, .f32⟩ : BufTy).Contents (Elt F)),
    StableHlo.unary main_v3 main_v26 (broadcastInDim S800000x1 ![0] bcast_S800000_S800000x1_0 : (⟨S800000, .i32⟩ : BufTy).Contents (Elt F) → (⟨S800000x1, .i32⟩ : BufTy).Contents (Elt F)),
    StableHlo.ternary main_v25 main_v26 main_v24 main_v27 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v28 (broadcastInDim S50000 ![] bcast_S_S50000 : (⟨S_, .f32⟩ : BufTy).Contents (Elt F) → (⟨S50000, .f32⟩ : BufTy).Contents (Elt F)),
    StableHlo.binary main_v27 main_v28 main_v29 (maximumf : (⟨S50000, .f32⟩ : BufTy).Contents (Elt F) → (⟨S50000, .f32⟩ : BufTy).Contents (Elt F) → (⟨S50000, .f32⟩ : BufTy).Contents (Elt F)),
    StableHlo.unary main_v29 main_v30 (broadcastInDim S50000x1 ![0] bcast_S50000_S50000x1_0 : (⟨S50000, .f32⟩ : BufTy).Contents (Elt F) → (⟨S50000x1, .f32⟩ : BufTy).Contents (Elt F)),
    StableHlo.unary main_v30 main_v31 (broadcastInDim S50000x256 ![0, 1] bcast_S50000x1_S50000x256_0_1 : (⟨S50000x1, .f32⟩ : BufTy).Contents (Elt F) → (⟨S50000x256, .f32⟩ : BufTy).Contents (Elt F)),
    StableHlo.binary main_v23 main_v31 main_v32 (Host.divf : (⟨S50000x256, .f32⟩ : BufTy).Contents (Elt F) → (⟨S50000x256, .f32⟩ : BufTy).Contents (Elt F) → (⟨S50000x256, .f32⟩ : BufTy).Contents (Elt F)),
    StableHlo.binary main_arg0 main_v32 main_v33 ((fun a b => concatenate S50000x384 1 [⟨S50000x128, a⟩, ⟨S50000x256, b⟩] concatenates_S50000x128_S50000x256_S50000x384_d1) : (⟨S50000x128, .f32⟩ : BufTy).Contents (Elt F) → (⟨S50000x256, .f32⟩ : BufTy).Contents (Elt F) → (⟨S50000x384, .f32⟩ : BufTy).Contents (Elt F)),
    StableHlo.binary main_v33 main_arg9 main_v34 ((fun l r => Host.dotGeneral dot_S50000x384_S384x256_S50000x256_1_0_0_1_n_n none l r) : (⟨S50000x384, .f32⟩ : BufTy).Contents (Elt F) → (⟨S384x256, .f32⟩ : BufTy).Contents (Elt F) → (⟨S50000x256, .f32⟩ : BufTy).Contents (Elt F)),
    StableHlo.unary main_arg10 main_v35 (broadcastInDim S1x256 ![1] bcast_S256_S1x256_1 : (⟨S256, .f32⟩ : BufTy).Contents (Elt F) → (⟨S1x256, .f32⟩ : BufTy).Contents (Elt F)),
    StableHlo.unary main_v35 main_v36 (broadcastInDim S50000x256 ![0, 1] bcast_S1x256_S50000x256_0_1 : (⟨S1x256, .f32⟩ : BufTy).Contents (Elt F) → (⟨S50000x256, .f32⟩ : BufTy).Contents (Elt F)),
    StableHlo.binary main_v34 main_v36 main_v37 (addf : (⟨S50000x256, .f32⟩ : BufTy).Contents (Elt F) → (⟨S50000x256, .f32⟩ : BufTy).Contents (Elt F) → (⟨S50000x256, .f32⟩ : BufTy).Contents (Elt F)),
    TRef.nullary main_call1.cst (constant S_ .f32 0x00000000#32),
    TRef.unary main_call1.cst main_call1.v0 (broadcastInDim S50000x256 ![] bcast_S_S50000x256),
    TRef.binary (.of main_v37 : TRef sig ⟨S50000x256, .f32⟩) main_call1.v0 main_call1.v1 (cmpf .ogt),
    TRef.nullary main_call1.cst_0 (constant S_ .f32 0x00000000#32),
    TRef.unary main_call1.cst_0 main_call1.v2 (broadcastInDim S50000x256 ![] bcast_S_S50000x256),
    TRef.binary (.of main_v37 : TRef sig ⟨S50000x256, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x256 ![] bcast_S_S50000x256),
    TRef.ternary main_call1.v3 main_call1.call0.v1 (.of main_v37 : TRef sig ⟨S50000x256, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S50000x256 ![] bcast_S_S50000x256),
    TRef.binary main_call1.v6 main_call1.v5 main_call1.v7 mulf,
    TRef.ternary main_call1.v1 (.of main_v37 : TRef sig ⟨S50000x256, .f32⟩) main_call1.v7 main_call1.call1.v0 select,
    StableHlo.binary main_v38 main_arg11 main_v39 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg12 main_v40 (broadcastInDim S1x256 ![1] bcast_S256_S1x256_1 : (⟨S256, .f32⟩ : BufTy).Contents (Elt F) → (⟨S1x256, .f32⟩ : BufTy).Contents (Elt F)),
    StableHlo.unary main_v40 main_v41 (broadcastInDim S50000x256 ![0, 1] bcast_S1x256_S50000x256_0_1 : (⟨S1x256, .f32⟩ : BufTy).Contents (Elt F) → (⟨S50000x256, .f32⟩ : BufTy).Contents (Elt F)),
    StableHlo.binary main_v39 main_v41 main_v42 (addf : (⟨S50000x256, .f32⟩ : BufTy).Contents (Elt F) → (⟨S50000x256, .f32⟩ : BufTy).Contents (Elt F) → (⟨S50000x256, .f32⟩ : BufTy).Contents (Elt F)) ]

-- seventy-seven sequenced steps: unfolding the chain descends once per step
set_option maxRecDepth 8192 in
set_option maxHeartbeats 2000000 in
/-- The program is that straight line: sequencing a step with a continuation is, by the definition of sequencing, the
    step continued by it, and a callee's closing return continued by the rest is the rest; so with the callees' bodies
    opened at their calls both sides compute to one chain of steps. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

/-- Every operation touches only buffers of the TensorCore's table. -/
theorem ops_sub : (ops : List (HloOp τ sig (Elt F))).Forall fun op => op.bufs ⊆ tcRefs τ sig :=
  ⟨
    unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., binary_bufs_sub .., unary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., binary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., unary_bufs_sub .., nullary_bufs_sub .., unary_bufs_sub .., binary_bufs_sub ..,
    ternary_bufs_sub .., binary_bufs_sub .., unary_bufs_sub .., unary_bufs_sub .., binary_bufs_sub ..⟩

/-- From any memory with zero counters, every execution of the program terminates with each buffer at the fold of the
    operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Line

section Pieces

open Cert.ReferenceIdeal.Facts₀

variable {F : FTy → Type} [FloatOps F]

/-- The line cut before each concatenation: the index arithmetic and the row gather; the edge perceptron and the mean
    per node; the node perceptron. -/
abbrev ops₁ : List (HloOp τ sig (Elt F)) :=
  [
    StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]
abbrev ops₂ : List (HloOp τ sig (Elt F)) :=
  [
    StableHlo.binary main_v10 main_arg2 main_v11 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    StableHlo.binary main_v11 main_arg5 main_v12 ((fun l r => Host.dotGeneral dot_S800000x256_S256x256_S800000x256_1_0_0_1_n_n none l r) : (⟨S800000x256, .f32⟩ : BufTy).Contents (Elt F) → (⟨S256x256, .f32⟩ : BufTy).Contents (Elt F) → (⟨S800000x256, .f32⟩ : BufTy).Contents (Elt F)),
    StableHlo.unary main_arg6 main_v13 (broadcastInDim S1x256 ![1] bcast_S256_S1x256_1 : (⟨S256, .f32⟩ : BufTy).Contents (Elt F) → (⟨S1x256, .f32⟩ : BufTy).Contents (Elt F)),
    StableHlo.unary main_v13 main_v14 (broadcastInDim S800000x256 ![0, 1] bcast_S1x256_S800000x256_0_1 : (⟨S1x256, .f32⟩ : BufTy).Contents (Elt F) → (⟨S800000x256, .f32⟩ : BufTy).Contents (Elt F)),
    StableHlo.binary main_v12 main_v14 main_v15 (addf : (⟨S800000x256, .f32⟩ : BufTy).Contents (Elt F) → (⟨S800000x256, .f32⟩ : BufTy).Contents (Elt F) → (⟨S800000x256, .f32⟩ : BufTy).Contents (Elt F)),
    TRef.nullary main_call0.cst (constant S_ .f32 0x00000000#32),
    TRef.unary main_call0.cst main_call0.v0 (broadcastInDim S800000x256 ![] bcast_S_S800000x256),
    TRef.binary (.of main_v15 : TRef sig ⟨S800000x256, .f32⟩) main_call0.v0 main_call0.v1 (cmpf .ogt),
    TRef.nullary main_call0.cst_0 (constant S_ .f32 0x00000000#32),
    TRef.unary main_call0.cst_0 main_call0.v2 (broadcastInDim S800000x256 ![] bcast_S_S800000x256),
    TRef.binary (.of main_v15 : TRef sig ⟨S800000x256, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S800000x256 ![] bcast_S_S800000x256),
    TRef.ternary main_call0.v3 main_call0.call0.v1 (.of main_v15 : TRef sig ⟨S800000x256, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S800000x256 ![] bcast_S_S800000x256),
    TRef.binary main_call0.v6 main_call0.v5 main_call0.v7 mulf,
    TRef.ternary main_call0.v1 (.of main_v15 : TRef sig ⟨S800000x256, .f32⟩) main_call0.v7 main_call0.call1.v0 select,
    StableHlo.binary main_v16 main_arg7 main_v17 ((fun l r => Host.dotGeneral dot_S800000x256_S256x256_S800000x256_1_0_0_1_n_n none l r) : (⟨S800000x256, .f32⟩ : BufTy).Contents (Elt F) → (⟨S256x256, .f32⟩ : BufTy).Contents (Elt F) → (⟨S800000x256, .f32⟩ : BufTy).Contents (Elt F)),
    StableHlo.unary main_arg8 main_v18 (broadcastInDim S1x256 ![1] bcast_S256_S1x256_1 : (⟨S256, .f32⟩ : BufTy).Contents (Elt F) → (⟨S1x256, .f32⟩ : BufTy).Contents (Elt F)),
    StableHlo.unary main_v18 main_v19 (broadcastInDim S800000x256 ![0, 1] bcast_S1x256_S800000x256_0_1 : (⟨S1x256, .f32⟩ : BufTy).Contents (Elt F) → (⟨S800000x256, .f32⟩ : BufTy).Contents (Elt F)),
    StableHlo.binary main_v17 main_v19 main_v20 (addf : (⟨S800000x256, .f32⟩ : BufTy).Contents (Elt F) → (⟨S800000x256, .f32⟩ : BufTy).Contents (Elt F) → (⟨S800000x256, .f32⟩ : BufTy).Contents (Elt F)),
    StableHlo.nullary main_cst (constant S_ .f32 0x00000000#32),
    StableHlo.unary main_cst main_v21 (broadcastInDim S50000x256 ![] bcast_S_S50000x256 : (⟨S_, .f32⟩ : BufTy).Contents (Elt F) → (⟨S50000x256, .f32⟩ : BufTy).Contents (Elt F)),
    StableHlo.unary main_v3 main_v22 (broadcastInDim S800000x1 ![0] bcast_S800000_S800000x1_0 : (⟨S800000, .i32⟩ : BufTy).Contents (Elt F) → (⟨S800000x1, .i32⟩ : BufTy).Contents (Elt F)),
    StableHlo.ternary main_v21 main_v22 main_v20 main_v23 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.nullary main_cst_1 (constant S_ .f32 0x3F800000#32),
    StableHlo.unary main_cst_1 main_v24 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v25 (broadcastInDim S50000 ![] bcast_S_S50000 : (⟨S_, .f32⟩ : BufTy).Contents (Elt F) → (⟨S50000, .f32⟩ : BufTy).Contents (Elt F)),
    StableHlo.unary main_v3 main_v26 (broadcastInDim S800000x1 ![0] bcast_S800000_S800000x1_0 : (⟨S800000, .i32⟩ : BufTy).Contents (Elt F) → (⟨S800000x1, .i32⟩ : BufTy).Contents (Elt F)),
    StableHlo.ternary main_v25 main_v26 main_v24 main_v27 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v28 (broadcastInDim S50000 ![] bcast_S_S50000 : (⟨S_, .f32⟩ : BufTy).Contents (Elt F) → (⟨S50000, .f32⟩ : BufTy).Contents (Elt F)),
    StableHlo.binary main_v27 main_v28 main_v29 (maximumf : (⟨S50000, .f32⟩ : BufTy).Contents (Elt F) → (⟨S50000, .f32⟩ : BufTy).Contents (Elt F) → (⟨S50000, .f32⟩ : BufTy).Contents (Elt F)),
    StableHlo.unary main_v29 main_v30 (broadcastInDim S50000x1 ![0] bcast_S50000_S50000x1_0 : (⟨S50000, .f32⟩ : BufTy).Contents (Elt F) → (⟨S50000x1, .f32⟩ : BufTy).Contents (Elt F)),
    StableHlo.unary main_v30 main_v31 (broadcastInDim S50000x256 ![0, 1] bcast_S50000x1_S50000x256_0_1 : (⟨S50000x1, .f32⟩ : BufTy).Contents (Elt F) → (⟨S50000x256, .f32⟩ : BufTy).Contents (Elt F)),
    StableHlo.binary main_v23 main_v31 main_v32 (Host.divf : (⟨S50000x256, .f32⟩ : BufTy).Contents (Elt F) → (⟨S50000x256, .f32⟩ : BufTy).Contents (Elt F) → (⟨S50000x256, .f32⟩ : BufTy).Contents (Elt F)) ]
abbrev ops₃ : List (HloOp τ sig (Elt F)) :=
  [
    StableHlo.binary main_arg0 main_v32 main_v33 ((fun a b => concatenate S50000x384 1 [⟨S50000x128, a⟩, ⟨S50000x256, b⟩] concatenates_S50000x128_S50000x256_S50000x384_d1) : (⟨S50000x128, .f32⟩ : BufTy).Contents (Elt F) → (⟨S50000x256, .f32⟩ : BufTy).Contents (Elt F) → (⟨S50000x384, .f32⟩ : BufTy).Contents (Elt F)),
    StableHlo.binary main_v33 main_arg9 main_v34 ((fun l r => Host.dotGeneral dot_S50000x384_S384x256_S50000x256_1_0_0_1_n_n none l r) : (⟨S50000x384, .f32⟩ : BufTy).Contents (Elt F) → (⟨S384x256, .f32⟩ : BufTy).Contents (Elt F) → (⟨S50000x256, .f32⟩ : BufTy).Contents (Elt F)),
    StableHlo.unary main_arg10 main_v35 (broadcastInDim S1x256 ![1] bcast_S256_S1x256_1 : (⟨S256, .f32⟩ : BufTy).Contents (Elt F) → (⟨S1x256, .f32⟩ : BufTy).Contents (Elt F)),
    StableHlo.unary main_v35 main_v36 (broadcastInDim S50000x256 ![0, 1] bcast_S1x256_S50000x256_0_1 : (⟨S1x256, .f32⟩ : BufTy).Contents (Elt F) → (⟨S50000x256, .f32⟩ : BufTy).Contents (Elt F)),
    StableHlo.binary main_v34 main_v36 main_v37 (addf : (⟨S50000x256, .f32⟩ : BufTy).Contents (Elt F) → (⟨S50000x256, .f32⟩ : BufTy).Contents (Elt F) → (⟨S50000x256, .f32⟩ : BufTy).Contents (Elt F)),
    TRef.nullary main_call1.cst (constant S_ .f32 0x00000000#32),
    TRef.unary main_call1.cst main_call1.v0 (broadcastInDim S50000x256 ![] bcast_S_S50000x256),
    TRef.binary (.of main_v37 : TRef sig ⟨S50000x256, .f32⟩) main_call1.v0 main_call1.v1 (cmpf .ogt),
    TRef.nullary main_call1.cst_0 (constant S_ .f32 0x00000000#32),
    TRef.unary main_call1.cst_0 main_call1.v2 (broadcastInDim S50000x256 ![] bcast_S_S50000x256),
    TRef.binary (.of main_v37 : TRef sig ⟨S50000x256, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x256 ![] bcast_S_S50000x256),
    TRef.ternary main_call1.v3 main_call1.call0.v1 (.of main_v37 : TRef sig ⟨S50000x256, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S50000x256 ![] bcast_S_S50000x256),
    TRef.binary main_call1.v6 main_call1.v5 main_call1.v7 mulf,
    TRef.ternary main_call1.v1 (.of main_v37 : TRef sig ⟨S50000x256, .f32⟩) main_call1.v7 main_call1.call1.v0 select,
    StableHlo.binary main_v38 main_arg11 main_v39 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg12 main_v40 (broadcastInDim S1x256 ![1] bcast_S256_S1x256_1 : (⟨S256, .f32⟩ : BufTy).Contents (Elt F) → (⟨S1x256, .f32⟩ : BufTy).Contents (Elt F)),
    StableHlo.unary main_v40 main_v41 (broadcastInDim S50000x256 ![0, 1] bcast_S1x256_S50000x256_0_1 : (⟨S1x256, .f32⟩ : BufTy).Contents (Elt F) → (⟨S50000x256, .f32⟩ : BufTy).Contents (Elt F)),
    StableHlo.binary main_v39 main_v41 main_v42 (addf : (⟨S50000x256, .f32⟩ : BufTy).Contents (Elt F) → (⟨S50000x256, .f32⟩ : BufTy).Contents (Elt F) → (⟨S50000x256, .f32⟩ : BufTy).Contents (Elt F)) ]

theorem ops_split : (ops : List (HloOp τ sig (Elt F))) = ops₁ ++ (ops₂ ++ ops₃) := rfl

/-- Folding over two lines in a row is folding over the second from where the first ends. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

end Pieces

section Value

-- the array functions stay folded while a fold of results is computed: the equations never look inside them
attribute [local irreducible] Host.gather Host.scatterAdd Host.expm1 Host.divf concatenate
  broadcastInDim extractStridedSlice shapeCast select cmpf cmpi addf addi mulf maximumf constant constantI

/-! What the first piece leaves: the gathered rows, the destination row of the edge list, and the arguments the later
    pieces read. -/

set_option maxRecDepth 8192 in
theorem ops₁_gather (W : Valuation τ sig (Elt Ideal)) :
    after (ops₁ (F := Ideal)) W (main_v10 : DevRef τ sig) = Chain.gatherRows (W (main_arg0 : DevRef τ sig)) (Chain.rowIdx (W (main_arg1 : DevRef τ sig))) := by
  after_results_simp
  try simp only [TRef.ofBuf, TRef.toBuf, cast_eq]
  rfl

set_option maxRecDepth 8192 in
theorem ops₁_col (W : Valuation τ sig (Elt Ideal)) :
    after (ops₁ (F := Ideal)) W (main_v3 : DevRef τ sig) = Chain.colVec (W (main_arg1 : DevRef τ sig)) := by
  after_results_simp
  try simp only [TRef.ofBuf, TRef.toBuf, cast_eq]
  rfl

theorem ops₁_arg0 (W : Valuation τ sig (Elt Ideal)) :
    after (ops₁ (F := Ideal)) W (main_arg0 : DevRef τ sig) = W (main_arg0 : DevRef τ sig) := by
  simp only [after_cons, after_nil]
  rfl

theorem ops₁_arg2 (W : Valuation τ sig (Elt Ideal)) :
    after (ops₁ (F := Ideal)) W (main_arg2 : DevRef τ sig) = W (main_arg2 : DevRef τ sig) := by
  simp only [after_cons, after_nil]
  rfl

theorem ops₁_arg5 (W : Valuation τ sig (Elt Ideal)) :
    after (ops₁ (F := Ideal)) W (main_arg5 : DevRef τ sig) = W (main_arg5 : DevRef τ sig) := by
  simp only [after_cons, after_nil]
  rfl

theorem ops₁_arg6 (W : Valuation τ sig (Elt Ideal)) :
    after (ops₁ (F := Ideal)) W (main_arg6 : DevRef τ sig) = W (main_arg6 : DevRef τ sig) := by
  simp only [after_cons, after_nil]
  rfl

theorem ops₁_arg7 (W : Valuation τ sig (Elt Ideal)) :
    after (ops₁ (F := Ideal)) W (main_arg7 : DevRef τ sig) = W (main_arg7 : DevRef τ sig) := by
  simp only [after_cons, after_nil]
  rfl

theorem ops₁_arg8 (W : Valuation τ sig (Elt Ideal)) :
    after (ops₁ (F := Ideal)) W (main_arg8 : DevRef τ sig) = W (main_arg8 : DevRef τ sig) := by
  simp only [after_cons, after_nil]
  rfl

theorem ops₁_arg9 (W : Valuation τ sig (Elt Ideal)) :
    after (ops₁ (F := Ideal)) W (main_arg9 : DevRef τ sig) = W (main_arg9 : DevRef τ sig) := by
  simp only [after_cons, after_nil]
  rfl

theorem ops₁_arg10 (W : Valuation τ sig (Elt Ideal)) :
    after (ops₁ (F := Ideal)) W (main_arg10 : DevRef τ sig) = W (main_arg10 : DevRef τ sig) := by
  simp only [after_cons, after_nil]
  rfl

theorem ops₁_arg11 (W : Valuation τ sig (Elt Ideal)) :
    after (ops₁ (F := Ideal)) W (main_arg11 : DevRef τ sig) = W (main_arg11 : DevRef τ sig) := by
  simp only [after_cons, after_nil]
  rfl

theorem ops₁_arg12 (W : Valuation τ sig (Elt Ideal)) :
    after (ops₁ (F := Ideal)) W (main_arg12 : DevRef τ sig) = W (main_arg12 : DevRef τ sig) := by
  simp only [after_cons, after_nil]
  rfl

/-! What the second piece leaves: the mean message per node, and the arguments the last piece reads. -/

set_option maxRecDepth 8192 in
set_option maxHeartbeats 1600000 in
theorem ops₂_mean (W : Valuation τ sig (Elt Ideal)) :
    after (ops₂ (F := Ideal)) W (main_v32 : DevRef τ sig)
      = Chain.meanOf (Chain.mlpE (W (main_v10 : DevRef τ sig)) (W (main_arg2 : DevRef τ sig)) (W (main_arg5 : DevRef τ sig)) (W (main_arg6 : DevRef τ sig)) (W (main_arg7 : DevRef τ sig)) (W (main_arg8 : DevRef τ sig)))
          (broadcastInDim S800000x1 ![0] Facts₀.bcast_S800000_S800000x1_0 (W (main_v3 : DevRef τ sig))) := by
  after_results_simp
  try simp only [TRef.ofBuf, TRef.toBuf, cast_eq]
  rfl

theorem ops₂_arg0 (W : Valuation τ sig (Elt Ideal)) :
    after (ops₂ (F := Ideal)) W (main_arg0 : DevRef τ sig) = W (main_arg0 : DevRef τ sig) := by
  simp only [after_cons, after_nil]
  rfl

theorem ops₂_arg9 (W : Valuation τ sig (Elt Ideal)) :
    after (ops₂ (F := Ideal)) W (main_arg9 : DevRef τ sig) = W (main_arg9 : DevRef τ sig) := by
  simp only [after_cons, after_nil]
  rfl

theorem ops₂_arg10 (W : Valuation τ sig (Elt Ideal)) :
    after (ops₂ (F := Ideal)) W (main_arg10 : DevRef τ sig) = W (main_arg10 : DevRef τ sig) := by
  simp only [after_cons, after_nil]
  rfl

theorem ops₂_arg11 (W : Valuation τ sig (Elt Ideal)) :
    after (ops₂ (F := Ideal)) W (main_arg11 : DevRef τ sig) = W (main_arg11 : DevRef τ sig) := by
  simp only [after_cons, after_nil]
  rfl

theorem ops₂_arg12 (W : Valuation τ sig (Elt Ideal)) :
    after (ops₂ (F := Ideal)) W (main_arg12 : DevRef τ sig) = W (main_arg12 : DevRef τ sig) := by
  simp only [after_cons, after_nil]
  rfl

/-! The last piece: the node perceptron over the features and the means. -/

set_option maxRecDepth 8192 in
set_option maxHeartbeats 1600000 in
theorem ops₃_out (W : Valuation τ sig (Elt Ideal)) :
    after (ops₃ (F := Ideal)) W (main_v42 : DevRef τ sig)
      = Chain.mlpN (W (main_arg0 : DevRef τ sig)) (W (main_v32 : DevRef τ sig)) (W (main_arg9 : DevRef τ sig)) (W (main_arg10 : DevRef τ sig)) (W (main_arg11 : DevRef τ sig)) (W (main_arg12 : DevRef τ sig)) := by
  after_results_simp
  try simp only [TRef.ofBuf, TRef.toBuf, cast_eq]
  rfl

/-- The fold read at the result buffer is the chain of whole-array functions: piece by piece, each result read is the
    piece's function of what the piece before left. -/
theorem out_eq (V : Valuation τ sig (Elt Ideal)) :
    after (ops (F := Ideal)) V (main_v42 : DevRef τ sig)
      = Chain.out (V (main_arg0 : DevRef τ sig)) (V (main_arg1 : DevRef τ sig)) (V (main_arg2 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  rw [ops_split, after_app, after_app, ops₃_out, ops₂_mean, ops₂_arg0, ops₂_arg9, ops₂_arg10, ops₂_arg11, ops₂_arg12,
    ops₁_gather, ops₁_col, ops₁_arg0, ops₁_arg2, ops₁_arg5, ops₁_arg6, ops₁_arg7, ops₁_arg8, ops₁_arg9, ops₁_arg10,
    ops₁_arg11, ops₁_arg12]
  rfl

set_option maxRecDepth 16384 in
/-- No operation writes argument 0: every step of the fold leaves it. -/
theorem arg0_eq (V : Valuation τ sig (Elt Ideal)) :
    after (ops (F := Ideal)) V (main_arg0 : DevRef τ sig) = V (main_arg0 : DevRef τ sig) := by
  simp only [after_cons, after_nil]
  rfl

set_option maxRecDepth 16384 in
/-- No operation writes argument 1: every step of the fold leaves it. -/
theorem arg1_eq (V : Valuation τ sig (Elt Ideal)) :
    after (ops (F := Ideal)) V (main_arg1 : DevRef τ sig) = V (main_arg1 : DevRef τ sig) := by
  simp only [after_cons, after_nil]
  rfl

set_option maxRecDepth 16384 in
/-- No operation writes argument 2: every step of the fold leaves it. -/
theorem arg2_eq (V : Valuation τ sig (Elt Ideal)) :
    after (ops (F := Ideal)) V (main_arg2 : DevRef τ sig) = V (main_arg2 : DevRef τ sig) := by
  simp only [after_cons, after_nil]
  rfl

set_option maxRecDepth 16384 in
/-- No operation writes argument 3: every step of the fold leaves it. -/
theorem arg3_eq (V : Valuation τ sig (Elt Ideal)) :
    after (ops (F := Ideal)) V (main_arg3 : DevRef τ sig) = V (main_arg3 : DevRef τ sig) := by
  simp only [after_cons, after_nil]
  rfl

set_option maxRecDepth 16384 in
/-- No operation writes argument 4: every step of the fold leaves it. -/
theorem arg4_eq (V : Valuation τ sig (Elt Ideal)) :
    after (ops (F := Ideal)) V (main_arg4 : DevRef τ sig) = V (main_arg4 : DevRef τ sig) := by
  simp only [after_cons, after_nil]
  rfl

set_option maxRecDepth 16384 in
/-- No operation writes argument 5: every step of the fold leaves it. -/
theorem arg5_eq (V : Valuation τ sig (Elt Ideal)) :
    after (ops (F := Ideal)) V (main_arg5 : DevRef τ sig) = V (main_arg5 : DevRef τ sig) := by
  simp only [after_cons, after_nil]
  rfl

set_option maxRecDepth 16384 in
/-- No operation writes argument 6: every step of the fold leaves it. -/
theorem arg6_eq (V : Valuation τ sig (Elt Ideal)) :
    after (ops (F := Ideal)) V (main_arg6 : DevRef τ sig) = V (main_arg6 : DevRef τ sig) := by
  simp only [after_cons, after_nil]
  rfl

set_option maxRecDepth 16384 in
/-- No operation writes argument 7: every step of the fold leaves it. -/
theorem arg7_eq (V : Valuation τ sig (Elt Ideal)) :
    after (ops (F := Ideal)) V (main_arg7 : DevRef τ sig) = V (main_arg7 : DevRef τ sig) := by
  simp only [after_cons, after_nil]
  rfl

set_option maxRecDepth 16384 in
/-- No operation writes argument 8: every step of the fold leaves it. -/
theorem arg8_eq (V : Valuation τ sig (Elt Ideal)) :
    after (ops (F := Ideal)) V (main_arg8 : DevRef τ sig) = V (main_arg8 : DevRef τ sig) := by
  simp only [after_cons, after_nil]
  rfl

set_option maxRecDepth 16384 in
/-- No operation writes argument 9: every step of the fold leaves it. -/
theorem arg9_eq (V : Valuation τ sig (Elt Ideal)) :
    after (ops (F := Ideal)) V (main_arg9 : DevRef τ sig) = V (main_arg9 : DevRef τ sig) := by
  simp only [after_cons, after_nil]
  rfl

set_option maxRecDepth 16384 in
/-- No operation writes argument 10: every step of the fold leaves it. -/
theorem arg10_eq (V : Valuation τ sig (Elt Ideal)) :
    after (ops (F := Ideal)) V (main_arg10 : DevRef τ sig) = V (main_arg10 : DevRef τ sig) := by
  simp only [after_cons, after_nil]
  rfl

set_option maxRecDepth 16384 in
/-- No operation writes argument 11: every step of the fold leaves it. -/
theorem arg11_eq (V : Valuation τ sig (Elt Ideal)) :
    after (ops (F := Ideal)) V (main_arg11 : DevRef τ sig) = V (main_arg11 : DevRef τ sig) := by
  simp only [after_cons, after_nil]
  rfl

set_option maxRecDepth 16384 in
/-- No operation writes argument 12: every step of the fold leaves it. -/
theorem arg12_eq (V : Valuation τ sig (Elt Ideal)) :
    after (ops (F := Ideal)) V (main_arg12 : DevRef τ sig) = V (main_arg12 : DevRef τ sig) := by
  simp only [after_cons, after_nil]
  rfl

end Value

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v42)
        = Chain.out (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  exact (θ_run (defs (F := Ideal)) _ _).mono (fun _ h c => ⟨(h c main_v42).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩) (run_main m ρ)

end Cert.ReferenceIdeal.Hand

end
-- ==== Proof.RefValue.lean ====
/-
  The reference's two perceptrons, written with whole-array operations over concatenated inputs, are entry by entry
  the perceptron rows of the specification: a contraction over the concatenated axis splits into the contractions
  over its two parts, and jax's spelling of ELU is ELU.
-/
import proofs.«419081_j91122026152383_1_alg».proof.Proof.RefChain
import proofs.«419081_j91122026152383_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal

variable [Cert.ReferenceIdeal.Facts]

open scoped BigOperators

/-- A matrix product with no batch axis, contracting the left operand's columns against the right operand's rows, read
    at an entry: the sum over the contracted coordinate of the products of the entries. -/
private theorem dot_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A sum over 0..A+B-1 as the sum over its first A terms plus the sum over its last B terms, the terms named by their
    positions. -/
private theorem sum_split (A B N : Nat) (hN : A + B = N) (f : Fin N → EReal) :
    ∑ c : Fin N, f c = (∑ a : Fin A, f ⟨a.val, by omega⟩) + ∑ b : Fin B, f ⟨A + b.val, by omega⟩ := by
  subst hN
  exact Cert.Spec.sum_concat (A := A) (B := B) f

/-- Two matrices side by side, read at a column of the first. -/
private theorem concat_left {R A B N : Nat} (x₁ : (⟨2, ![R, A]⟩ : Shape).Idx → EReal) (x₂ : (⟨2, ![R, B]⟩ : Shape).Idx → EReal)
    (h : Shape.Concatenates [⟨2, ![R, A]⟩, ⟨2, ![R, B]⟩] ⟨2, ![R, N]⟩ 1) (e : Fin R) (c : Fin N) (hc : c.val < A) :
    concatenate ⟨2, ![R, N]⟩ 1 [⟨⟨2, ![R, A]⟩, x₁⟩, ⟨⟨2, ![R, B]⟩, x₂⟩] h (ix2 e c) = x₁ (ix2 e ⟨c.val, hc⟩) := by
  refine concatenate_pair_apply_left 1 x₁ x₂ h (ix2 e c) rfl (ix2 e ⟨c.val, hc⟩) ?_
  intro b
  match b with
  | ⟨0, _⟩ => rfl
  | ⟨1, _⟩ => rfl

/-- Two matrices side by side, read at a column of the second. -/
private theorem concat_right {R A B N : Nat} (x₁ : (⟨2, ![R, A]⟩ : Shape).Idx → EReal) (x₂ : (⟨2, ![R, B]⟩ : Shape).Idx → EReal)
    (h : Shape.Concatenates [⟨2, ![R, A]⟩, ⟨2, ![R, B]⟩] ⟨2, ![R, N]⟩ 1) (e : Fin R) (c : Fin N) (hc : A ≤ c.val) (hc' : c.val - A < B) :
    concatenate ⟨2, ![R, N]⟩ 1 [⟨⟨2, ![R, A]⟩, x₁⟩, ⟨⟨2, ![R, B]⟩, x₂⟩] h (ix2 e c) = x₂ (ix2 e ⟨c.val - A, hc'⟩) := by
  refine concatenate_pair_apply_right 1 x₁ x₂ h (ix2 e c) rfl rfl (ix2 e ⟨c.val - A, hc'⟩) ?_ ?_
  · intro b hb
    match b with
    | ⟨0, _⟩ => rfl
    | ⟨1, _⟩ => exact absurd rfl hb
  · show c.val - A + A = c.val
    omega

/-- A vector laid as a one-row matrix and the row repeated down all rows, read at an entry, is the vector's entry at
    the column. -/
private theorem bias_apply {R n : Nat} (h1 : (⟨1, ![n]⟩ : Shape).BroadcastsInDim ⟨2, ![1, n]⟩ ![1])
    (h2 : (⟨2, ![1, n]⟩ : Shape).BroadcastsInDim ⟨2, ![R, n]⟩ ![0, 1]) (b : (⟨1, ![n]⟩ : Shape).Idx → EReal) (e : Fin R) (k : Fin n) :
    broadcastInDim ⟨2, ![R, n]⟩ ![0, 1] h2 (broadcastInDim ⟨2, ![1, n]⟩ ![1] h1 b) (ix2 e k) = b (ix1 k) := by
  rw [broadcastInDim_apply ![0, 1] h2 _ (ix2 e k) (ix2 (0 : Fin 1) k) (by
    intro a
    match a with
    | ⟨0, _⟩ => show (0 : ℕ) = if (1 : ℕ) = 1 then 0 else _; simp
    | ⟨1, _⟩ =>
      show k.val = if n = 1 then 0 else k.val
      split_ifs with hn
      · have := k.isLt; omega
      · rfl)]
  refine broadcastInDim_apply ![1] h1 b (ix2 (0 : Fin 1) k) (ix1 k) ?_
  intro a
  match a with
  | ⟨0, _⟩ =>
    show k.val = if n = 1 then 0 else k.val
    split_ifs with hn
    · have := k.isLt; omega
    · rfl

/-- A scalar constant repeated over a whole array reads the value its word encodes everywhere. -/
private theorem splat_apply {t : Shape} (h : S_.BroadcastsInDim t ![]) (w : BitVec FTy.f32.bits) (i : t.Idx) :
    broadcastInDim t ![] h (constant (F := Ideal) S_ .f32 w) i = Ideal.ofBits .f32 w := by
  rw [broadcastInDim_apply ![] h _ i ix0 (fun a => a.elim0)]
  rfl

/-- The word 0x3F800000 is the number one. -/
private theorem ofBits_one_f32 : Ideal.ofBits .f32 0x3F800000#32 = 1 := by
  simp [Ideal.ofBits, Ideal.ieee, -EReal.coe_mul]; norm_num

/-- A select on "x is above zero" is the `if` on that. -/
private theorem select_gt_zero (x a b : EReal) : Scalar.select (Ideal.cmp .ogt x 0) a b = if 0 < x then a else b := by
  unfold Scalar.select Ideal.cmp
  by_cases h : 0 < x <;> simp [h]

/-- What ELU's jax spelling reads at one value, its two constants being zero and one. -/
private theorem elu_spelled (x z o : EReal) (hz : z = 0) (ho : o = 1) :
    Scalar.select (Ideal.cmp .ogt x z) x (o * (Ideal.exp (Scalar.select (Ideal.cmp .ogt x z) z x) - 1)) = Cert.Spec.elu x := by
  subst hz ho
  rw [select_gt_zero, select_gt_zero]
  exact Cert.Spec.elu_guarded x

/-- ELU as jax spells it, read at an entry, is ELU of the entry. -/
private theorem eluE_apply (p : FVec Ideal S800000x256 .f32) (i : S800000x256.Idx) : Chain.eluE p i = Cert.Spec.elu (p i) := by
  unfold Chain.eluE
  simp only [select_apply, cmpf_apply, mulf_apply, Host.expm1, id, Ideal.cmpf_def, Ideal.hostUnary_expm1_def]
  exact elu_spelled (p i) _ _ ((splat_apply _ _ i).trans Ideal.ofBits_zero_f32) ((splat_apply _ _ i).trans ofBits_one_f32)

private theorem eluN_apply (p : FVec Ideal S50000x256 .f32) (i : S50000x256.Idx) : Chain.eluN p i = Cert.Spec.elu (p i) := by
  unfold Chain.eluN
  simp only [select_apply, cmpf_apply, mulf_apply, Host.expm1, id, Ideal.cmpf_def, Ideal.hostUnary_expm1_def]
  exact elu_spelled (p i) _ _ ((splat_apply _ _ i).trans Ideal.ofBits_zero_f32) ((splat_apply _ _ i).trans ofBits_one_f32)
/-- The first layer over a concatenation [a, b] against stacked weights, read at an entry: the two partial
    contractions against the two blocks of weight rows. -/
private theorem first_layer {R A B N : Nat} (hN : A + B = N) (x₁ : (⟨2, ![R, A]⟩ : Shape).Idx → EReal) (x₂ : (⟨2, ![R, B]⟩ : Shape).Idx → EReal)
    (h : Shape.Concatenates [⟨2, ![R, A]⟩, ⟨2, ![R, B]⟩] ⟨2, ![R, N]⟩ 1) (w : (⟨2, ![N, 256]⟩ : Shape).Idx → EReal) (e : Fin R) (k : Fin 256) :
    ∑ c : Fin N, concatenate ⟨2, ![R, N]⟩ 1 [⟨⟨2, ![R, A]⟩, x₁⟩, ⟨⟨2, ![R, B]⟩, x₂⟩] h (ix2 e c) * w (ix2 c k)
      = (∑ a : Fin A, x₁ (ix2 e a) * Cert.Spec.rows 0 A N (by omega) w (ix2 a k))
        + ∑ b : Fin B, x₂ (ix2 e b) * Cert.Spec.rows A B N (by omega) w (ix2 b k) := by
  rw [sum_split A B N hN]
  congr 1
  · refine Finset.sum_congr rfl fun a _ => ?_
    rw [concat_left x₁ x₂ h e ⟨a.val, by omega⟩ a.isLt, Cert.Spec.rows_apply]
    congr 2
    exact congrArg (fun r => ix2 r k) (Fin.ext (Nat.zero_add a.val).symm)
  · refine Finset.sum_congr rfl fun b _ => ?_
    rw [concat_right x₁ x₂ h e ⟨A + b.val, by omega⟩ (Nat.le_add_right A b.val) (by show A + b.val - A < B; omega), Cert.Spec.rows_apply]
    congr 2
    exact congrArg (fun r => ix2 e r) (Fin.ext (show A + b.val - A = b.val by omega))

/-- The three matrix products of the reference, read at an entry. -/
private theorem dotE_apply (A : FVec Ideal S800000x256 .f32) (B : FVec Ideal S256x256 .f32) (e : Fin 800000) (j : Fin 256) :
    Host.dotGeneral (F := Ideal) dot_S800000x256_S256x256_S800000x256_1_0_0_1_n_n none A B (ix2 e j)
      = ∑ c : Fin 256, A (ix2 e c) * B (ix2 c j) :=
  dot_apply _ none A B e j
private theorem dotN1_apply (A : FVec Ideal S50000x384 .f32) (B : FVec Ideal S384x256 .f32) (e : Fin 50000) (j : Fin 256) :
    Host.dotGeneral (F := Ideal) dot_S50000x384_S384x256_S50000x256_1_0_0_1_n_n none A B (ix2 e j)
      = ∑ c : Fin 384, A (ix2 e c) * B (ix2 c j) :=
  dot_apply _ none A B e j
private theorem dotN2_apply (A : FVec Ideal S50000x256 .f32) (B : FVec Ideal S256x256 .f32) (e : Fin 50000) (j : Fin 256) :
    Host.dotGeneral (F := Ideal) dot_S50000x256_S256x256_S50000x256_1_0_0_1_n_n none A B (ix2 e j)
      = ∑ c : Fin 256, A (ix2 e c) * B (ix2 c j) :=
  dot_apply _ none A B e j

theorem mlpE_eq (xr ea : FVec Ideal S800000x128 .f32) (w1a : FVec Ideal S256x256 .f32) (b1a : FVec Ideal S256 .f32)
    (w1b : FVec Ideal S256x256 .f32) (b1b : FVec Ideal S256 .f32) :
    Chain.mlpE xr ea w1a b1a w1b b1b
      = Cert.Spec.edgeG xr ea (Cert.Spec.rows 0 128 256 (by norm_num) w1a) (Cert.Spec.rows 128 128 256 (by norm_num) w1a) w1b
          (Cert.Spec.asRow b1a) (Cert.Spec.asRow b1b) := by
  funext i
  obtain ⟨e, j, rfl⟩ : ∃ (e : Fin 800000) (j : Fin 256), i = ix2 e j := ⟨i 0, i 1, eq_ix2 i⟩
  rw [Cert.Spec.edgeG_apply]
  unfold Chain.mlpE Cert.Spec.mlpRow
  beta_reduce
  rw [addf_apply, bias_apply, Cert.Spec.asRow_apply, dotE_apply]
  refine congrArg (fun s => s + b1b (ix1 j)) ?_
  refine Finset.sum_congr rfl fun k _ => ?_
  rw [eluE_apply, addf_apply, bias_apply, Cert.Spec.asRow_apply, dotE_apply, first_layer (A := 128) (B := 128) rfl]

theorem mlpN_eq (x : FVec Ideal S50000x128 .f32) (mn : FVec Ideal S50000x256 .f32) (w2a : FVec Ideal S384x256 .f32) (b2a : FVec Ideal S256 .f32)
    (w2b : FVec Ideal S256x256 .f32) (b2b : FVec Ideal S256 .f32) :
    Chain.mlpN x mn w2a b2a w2b b2b
      = Cert.Spec.nodeG x mn (Cert.Spec.rows 0 128 384 (by norm_num) w2a) (Cert.Spec.rows 128 256 384 (by norm_num) w2a) w2b
          (Cert.Spec.asRow b2a) (Cert.Spec.asRow b2b) := by
  funext i
  obtain ⟨e, j, rfl⟩ : ∃ (e : Fin 50000) (j : Fin 256), i = ix2 e j := ⟨i 0, i 1, eq_ix2 i⟩
  rw [Cert.Spec.nodeG_apply]
  unfold Chain.mlpN Cert.Spec.mlpRow
  beta_reduce
  rw [addf_apply, bias_apply, Cert.Spec.asRow_apply, dotN2_apply]
  refine congrArg (fun s => s + b2b (ix1 j)) ?_
  refine Finset.sum_congr rfl fun k _ => ?_
  rw [eluN_apply, addf_apply, bias_apply, Cert.Spec.asRow_apply, dotN1_apply, first_layer (A := 128) (B := 256) rfl]

end Cert.ReferenceIdeal.RefValue

end
-- ==== Proof.Bridge.lean ====
/-
  Both programs end with the same array. Write G for the function of the argument arrays that gathers each edge's
  source row of x, runs the edge perceptron on it and the edge's own row, averages the messages per destination node,
  and runs the node perceptron on each node's row and its mean message.

  The kernel's program: its second region leaves the node perceptron of the arrays it was entered with; those are the
  node array, the mean of the first region's output, and the second perceptron's weights re-laid; the first region
  leaves the edge perceptron of the taken source rows and the edge rows. Under the precondition every source index is a
  valid index of the 50000 rows, so the filling take is the gather, and the result is G of the arguments.

  The reference: its whole-array perceptrons over concatenated inputs are the same perceptron rows, and its gather and
  its scatter-mean are the kernel program's own operations, so its result is G of the arguments too.
-/
import proofs.«419081_j91122026152383_1_alg».proof.Defs
import proofs.«419081_j91122026152383_1_alg».proof.Proof.Gen.Pre_finite_inputs
import proofs.«419081_j91122026152383_1_alg».proof.Proof.Gen.ReferenceIdeal
import proofs.«419081_j91122026152383_1_alg».proof.Proof.KernelRun
import proofs.«419081_j91122026152383_1_alg».proof.Proof.Region0
import proofs.«419081_j91122026152383_1_alg».proof.Proof.Region1
import proofs.«419081_j91122026152383_1_alg».proof.Proof.Entry0
import proofs.«419081_j91122026152383_1_alg».proof.Proof.Entry1
import proofs.«419081_j91122026152383_1_alg».proof.Proof.TakeGather
import proofs.«419081_j91122026152383_1_alg».proof.Proof.RefRun
import proofs.«419081_j91122026152383_1_alg».proof.Proof.RefValue

set_option maxRecDepth 16384

noncomputable section

namespace Cert.Bridge

open Idealize.ShloMosaic Idealize.ShloMosaic.TcCoe Idealize.SL.Sem

/-- The result both programs compute, as one function of the eleven argument arrays they read. -/
def G (x : FVec Ideal Cert.KernelIdeal.S50000x128 .f32) (ei : IVec Cert.KernelIdeal.S2x800000 32)
    (ea : FVec Ideal Cert.KernelIdeal.S800000x128 .f32)
    (w1a : FVec Ideal Cert.KernelIdeal.S256x256 .f32) (b1a : FVec Ideal Cert.KernelIdeal.S256 .f32)
    (w1b : FVec Ideal Cert.KernelIdeal.S256x256 .f32) (b1b : FVec Ideal Cert.KernelIdeal.S256 .f32)
    (w2a : FVec Ideal Cert.KernelIdeal.S384x256 .f32) (b2a : FVec Ideal Cert.KernelIdeal.S256 .f32)
    (w2b : FVec Ideal Cert.KernelIdeal.S256x256 .f32) (b2b : FVec Ideal Cert.KernelIdeal.S256 .f32) :
    FVec Ideal Cert.KernelIdeal.S50000x256 .f32 :=
  Cert.Spec.nodeG x
    (Cert.KernelIdeal.Chain.meanOf
      (Cert.Spec.edgeG (Cert.KernelIdeal.Chain.gatherRows x (Cert.KernelIdeal.Chain.rowIdx ei)) ea
        (Cert.Spec.rows 0 128 256 (by norm_num) w1a) (Cert.Spec.rows 128 128 256 (by norm_num) w1a) w1b
        (Cert.Spec.asRow b1a) (Cert.Spec.asRow b1b))
      (Cert.KernelIdeal.Chain.colIdx ei))
    (Cert.Spec.rows 0 128 384 (by norm_num) w2a) (Cert.Spec.rows 128 256 384 (by norm_num) w2a) w2b
    (Cert.Spec.asRow b2a) (Cert.Spec.asRow b2b)

section Kernel

open Cert.KernelIdeal Cert.KernelIdeal.Gen

/-- The kernel program's result array, at the last boundary of its run, is `G` of the launch memory's arguments. -/
theorem kernel_result (m : (ℓ : Loc nD τ sig) → Buf (Elt Ideal) ℓ) (ρ : Dev nD → PrngReg) (h : Cert.Pre_KernelIdeal m) (c : Dev nD) :
    W6 (F := Ideal) m ρ c (Proc.devRef .tc main_v34)
      = G (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  have h6 : W6 (F := Ideal) m ρ c (Proc.devRef .tc main_v34) = (dat1 (F := Ideal) (V5 m ρ) c).arrAt 7 cfg1.N := W6_arr m ρ c 7
  have h4 : V4 (F := Ideal) m ρ c main_v14 = (dat0 (F := Ideal) (V3 m ρ) c).arrAt 7 cfg0.N := W4_arr m ρ c 7
  rw [h6, Region1.value, Entry1.arg0, Entry1.v26, Entry1.v28, Entry1.v30, Entry1.v31, Entry1.v32, Entry1.v33,
    h4, Region0.value, Entry0.v5, Entry0.v6, Entry0.v8, Entry0.v10, Entry0.v11, Entry0.v12, Entry0.v13,
    TakeGather.take_eq_gather_of_pre m h c]
  rfl

end Kernel

section Reference

open Cert.ReferenceIdeal

/-- The reference's result term is `G` of the same arguments. -/
theorem ref_out (x : FVec Ideal S50000x128 .f32) (ei : IVec S2x800000 32) (ea : FVec Ideal S800000x128 .f32)
    (w1a : FVec Ideal S256x256 .f32) (b1a : FVec Ideal S256 .f32) (w1b : FVec Ideal S256x256 .f32) (b1b : FVec Ideal S256 .f32)
    (w2a : FVec Ideal S384x256 .f32) (b2a : FVec Ideal S256 .f32) (w2b : FVec Ideal S256x256 .f32) (b2b : FVec Ideal S256 .f32) :
    Chain.out x ei ea w1a b1a w1b b1b w2a b2a w2b b2b = G x ei ea w1a b1a w1b b1b w2a b2a w2b b2b := by
  unfold Chain.out
  rw [RefValue.mlpN_eq, RefValue.mlpE_eq]
  rfl

end Reference

end Cert.Bridge

end
-- ==== Proof.lean ====
/-
  The certificate of a message-passing layer: each edge's message is a two-layer perceptron (ELU between the layers) of
  its source node's row and its own attributes; each node's output is the same kind of perceptron of the node's row and
  the mean of the messages of the edges that point at it.

  The kernel's program computes the two perceptrons in two pipelined regions, each first layer as the sum of two partial
  matrix products over the two halves of its input, and leaves the row gather and the scatter-mean to host operations;
  the reference concatenates the halves and takes one matrix product per layer. On the extended reals a change of float
  format is the identity, a contraction over a concatenated axis is the sum of the contractions over its parts, and the
  two spellings of ELU (e^p - 1 against 1 · expm1 of the guarded argument) are one function, so the two programs compute
  one function of the arguments wherever the row gather agrees. The kernel's program takes the source rows in the
  filling mode (a row of not-a-number, read as the bottom element, where the index is outside the 50000 rows) and the
  reference in the clamping mode; the precondition keeps every source index in -50000 … 49999, where both modes read the
  same row (a negative index counted from the end), and outside of which the reference itself indexes out of range.

  Frames: the two kernel programs' are the generated frame certificates; the reference's is its run with the result
  dropped. Nothing was rewritten by the idealization, so there is nothing to preserve.
-/
import proofs.«419081_j91122026152383_1_alg».proof.Defs
import proofs.«419081_j91122026152383_1_alg».proof.Proof.Gen.Kernel
import proofs.«419081_j91122026152383_1_alg».proof.Proof.Gen.Kernel.Frame
import proofs.«419081_j91122026152383_1_alg».proof.Proof.Gen.KernelIdeal
import proofs.«419081_j91122026152383_1_alg».proof.Proof.Gen.KernelIdeal.Frame
import proofs.«419081_j91122026152383_1_alg».proof.Proof.Gen.ReferenceIdeal
import proofs.«419081_j91122026152383_1_alg».proof.Proof.Gen.Pre_finite_inputs
import proofs.«419081_j91122026152383_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Hand.run m ρ)

theorem preserves : Cert.preserves_Kernel_KernelIdeal := trivial

/-- Both programs end with `G` of the arguments: the kernel's by its run and the value of its last boundary, the
    reference's by its run and the identification of its term, the arguments' agreement rewritten. -/
theorem algebraic : Cert.algebraic_KernelIdeal_ReferenceIdeal := by
  intro m ρ m' ρ' hpre hagree
  refine ⟨fun c => Cert.Bridge.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.Bridge.kernel_result m ρ hpre c), (h c).2⟩)
      (Cert.KernelIdeal.Gen.run_main (F := Ideal) m ρ)
  · refine (θ_run Cert.ReferenceIdeal.defs _ _).mono (fun r h c => ⟨(h c).1.trans ?_, (h c).2⟩)
      (Cert.ReferenceIdeal.Hand.run m' ρ')
    obtain ⟨h0, h1, h2, -, -, h5, h6, h7, h8, h9, h10, h11, h12⟩ := hagree c
    rw [Cert.Bridge.ref_out, h0, h1, h2, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
